-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x128 : Shape := ⟨2, ![100000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg2 : IVec S2x1600000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : IVec S1x1600000 32 := (extractStridedSlice S1x1600000 ![0, 0] · slices_S2x1600000_S1x1600000_0_0) main_arg2
  let main_v55 : IVec S1600000 32 := shapeCast S1600000 main_v54 shapeCasts_S1x1600000_S1600000
  let main_c_20 : IVec S_ 32 := constantI S_ 32 0#32
  let main_v56 : IVec S1600000 32 := broadcastInDim S1600000 ![] bcast_S_S1600000 main_c_20
  let main_v57 : IVec S1600000 1 := cmpi .sge main_v55 main_v56
  let main_v58 : IVec S1x1600000 32 := (extractStridedSlice S1x1600000 ![0, 0] · slices_S2x1600000_S1x1600000_0_0) main_arg2
  let main_v59 : IVec S1600000 32 := shapeCast S1600000 main_v58 shapeCasts_S1x1600000_S1600000
  let main_c_21 : IVec S_ 32 := constantI S_ 32 100000#32
  let main_v60 : IVec S1600000 32 := broadcastInDim S1600000 ![] bcast_S_S1600000 main_c_21
  let main_v61 : IVec S1600000 1 := cmpi .slt main_v59 main_v60
  let main_v62 : IVec S1600000 1 := andi main_v57 main_v61
  let main_c_22 : IVec S_ 1 := constantI S_ 1 1#1
  let main_v63 : IVec S_ 1 := (fun x v => Host.reduce IntOp.andi x v reducesTo_S1600000_S_d0 h_S_) main_v62 main_c_22
  let main_v64 : IVec S_ 1 := andi main_v53 main_v63
  main_v64

def fn_part2 {F : FTy → Type} [FloatOps F] (main_arg2 : IVec S2x1600000 32) (main_arg8 : FVec F S128 .f32) (main_arg9 : FVec F S128x128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg2 main_v48 main_v49 main_v50

def fn_part1 {F : FTy → Type} [FloatOps F] (main_arg2 : IVec S2x1600000 32) (main_arg5 : FVec F S128x128 .f32) (main_arg6 : FVec F S128 .f32) (main_arg7 : FVec F S128x128 .f32) (main_arg8 : FVec F S128 .f32) (main_arg9 : FVec F S128x128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_v33

def fn {F : FTy → Type} [FloatOps F] (main_arg0 : FVec F S100000x256 .f32) (main_arg1 : FVec F S100000x128 .f32) (main_arg2 : IVec S2x1600000 32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128x64 .f32) (main_arg11 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_v13 main_v16
-- ==== Kernel.lean ====
abbrev S100000x256 : Shape := ⟨2, ![100000, 256]⟩
abbrev S100000x128 : Shape := ⟨2, ![100000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S5000x256 : Shape := ⟨2, ![5000, 256]⟩
abbrev S5000x128 : Shape := ⟨2, ![5000, 128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S5000x1 : Shape := ⟨2, ![5000, 1]⟩
abbrev S5000x64 : Shape := ⟨2, ![5000, 64]⟩
abbrev S1x64 : Shape := ⟨2, ![1, 64]⟩

abbrev nBuf : Space → Nat
  | .hbm => 53
  | .vmem => 25
  | .smem => 0
  | _ => 0

abbrev bufTy : (tb : Table) → Fin (tcTables nBuf tb) → BufTy
  | .hbm, ⟨0, _⟩ => ⟨S100000x256, .f32⟩
  | .hbm, ⟨1, _⟩ => ⟨S100000x128, .f32⟩
  | .hbm, ⟨2, _⟩ => ⟨S2x1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x64, .f32⟩
  | .hbm, ⟨11, _⟩ => ⟨S64, .f32⟩
  | .hbm, ⟨12, _⟩ => ⟨S100000x128, .f32⟩
  | .hbm, ⟨13, _⟩ => ⟨S100000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1, .i32⟩
  | .hbm, ⟨27, _⟩ => ⟨S_, .i32⟩
  | .hbm, ⟨28, _⟩ => ⟨S1600000x1, .i32⟩
  | .hbm, ⟨29, _⟩ => ⟨S1600000x1, .i1⟩
  | .hbm, ⟨30, _⟩ => ⟨S1x1, .i32⟩
  | .hbm, ⟨31, _⟩ => ⟨S1600000x1, .i32⟩
  | .hbm, ⟨32, _⟩ => ⟨S1600000x1, .i1⟩
  | .hbm, ⟨33, _⟩ => ⟨S1600000x1, .i1⟩
  | .hbm, ⟨34, _⟩ => ⟨S_, .i1⟩
  | .hbm, ⟨35, _⟩ => ⟨S1600000, .i1⟩
  | .hbm, ⟨36, _⟩ => ⟨S1600000x128, .f32⟩
  | .hbm, ⟨37, _⟩ => ⟨S1600000x128, .i1⟩
  | .hbm, ⟨38, _⟩ => ⟨S_, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S_, .f32⟩
  | .hbm, ⟨46, _⟩ => ⟨S1600000, .f32⟩
  | .hbm, ⟨47, _⟩ => ⟨S_, .f32⟩
  | .hbm, ⟨48, _⟩ => ⟨S100000, .f32⟩
  | .hbm, ⟨49, _⟩ => ⟨S1600000x1, .i32⟩
  | .hbm, ⟨50, _⟩ => ⟨S100000, .f32⟩
  | .hbm, ⟨51, _⟩ => ⟨S100000x1, .f32⟩
  | .hbm, ⟨52, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128x64, .f32⟩
  | .local _ .vmem, ⟨22, _⟩ => ⟨S64, .f32⟩
  | .local _ .vmem, ⟨23, _⟩ => ⟨S5000x64, .f32⟩
  | .local _ .vmem, ⟨24, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v6 : Ref sig .tc := ⟨.hbm, 40, rfl⟩
abbrev main_cst : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_0 : Ref sig .tc := ⟨.hbm, 45, rfl⟩
abbrev main_v10 : Ref sig .tc := ⟨.hbm, 46, rfl⟩
abbrev main_cst_1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem8_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S100000x64.size a
  hwx2_8 : ∀ i : grid2.Coords, EltTy.bits .f32 = 32 ∨ (Rect.block (s := S100000x64) S5000x64.size (cc2_transform_8 i) (hinb2_8 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v15) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x256 : Shape := ⟨2, ![100000, 256]⟩
abbrev S100000x128 : Shape := ⟨2, ![100000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 65
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x128, .f32⟩
  | .hbm, ⟨2, _⟩ => ⟨S2x1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x64, .f32⟩
  | .hbm, ⟨11, _⟩ => ⟨S64, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000x128, .f32⟩
  | .hbm, ⟨18, _⟩ => ⟨S100000x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S1x1600000, .i32⟩
  | .hbm, ⟨27, _⟩ => ⟨S1600000, .i32⟩
  | .hbm, ⟨28, _⟩ => ⟨S1x1600000, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
import proofs.«420283_j42666205119271_1_alg».proof.Proof.Gen.ReferenceIdeal
import Idealize.ShloMosaic.PureOps.Ideal

/-!
# The reference's computation, stage by stage

A two-layer message-passing network on a bipartite graph. Each content node `i` and each user node `u` first goes
through its own dense layer with ReLU: `hc i = max (x_content i · Wc + bc) 0`, `hu u = max (x_user u · Wu + bu) 0`.
Every edge `e` carries the row `hu (src e)` to the content node `dst e`; a content node sums what arrives
(`agg`), counts it (`cnt`), and divides the sum by `max cnt 1`. The result row is
`((agg i / max (cnt i) 1) · Wl + bl + hc i · Wr) · Wo + bo`.

Each stage is named here as the reference spells it, as a function of its operands, so that the kernel's stages can
be stated against the same functions.
-/

noncomputable section

namespace Cert.Sage

open Idealize.ShloMosaic Cert.ReferenceIdeal Cert.ReferenceIdeal.Facts₀ Cert.ReferenceIdeal.Facts

variable {F : FTy → Type} [FloatOps F]

/-- The content nodes' dense layer with ReLU: `max (x · W + b) 0`, the bias laid along every row. -/
def denseC (x : FVec F S100000x256 .f32) (W : FVec F S256x128 .f32) (b : FVec F S128 .f32) : FVec F S100000x128 .f32 :=
  maximumf (addf (Host.dotGeneral dot_S100000x256_S256x128_S100000x128_1_0_0_1_n_n none x W)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The user nodes' dense layer with ReLU. -/
def denseU (x : FVec F S100000x128 .f32) (W : FVec F S128x128 .f32) (b : FVec F S128 .f32) : FVec F S100000x128 .f32 :=
  maximumf (addf (Host.dotGeneral dot_S100000x128_S128x128_S100000x128_1_0_0_1_n_n none x W)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The edges' source nodes: row 0 of the edge list. -/
def srcOf (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- A node number counted from the end when negative: `s + 100000` where `s < 0`, else `s`. -/
def wrapIdx (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The wrapped source nodes as a one-column index table. -/
def srcCol (s : IVec S1600000 32) : IVec S1600000x1 32 :=
  broadcastInDim S1600000x1 ![0] bcast_S1600000_S1600000x1_0 (wrapIdx s)

/-- The messages: edge `e`'s row is the user row at its source node. -/
def msgOf (hu : FVec F S100000x128 .f32) (s : IVec S1600000 32) : FVec F S1600000x128 .f32 :=
  Host.gather gather_S100000x128_S1600000x1_S1600000x128_1_0_n_n_0_1_1128 hu (srcCol s)

/-- The messages summed at their destination nodes. -/
def aggOf (msg : FVec F S1600000x128 .f32) (d : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d) msg

/-- The number of edges arriving at each content node. -/
def cntOf (d : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- The mean of the arriving messages, the combination with the node's own row, and the output layer. -/
def tailOf (agg : FVec F S100000x128 .f32) (cnt : FVec F S100000 .f32) (hc : FVec F S100000x128 .f32)
    (Wl : FVec F S128x128 .f32) (bl : FVec F S128 .f32) (Wr : FVec F S128x128 .f32) (Wo : FVec F S128x64 .f32)
    (bo : FVec F S64 .f32) : FVec F S100000x64 .f32 :=
  addf (Host.dotGeneral dot_S100000x128_S128x64_S100000x64_1_0_0_1_n_n none
      (addf (addf (Host.dotGeneral dot_S100000x128_S128x128_S100000x128_1_0_0_1_n_n none
            (Host.divf agg (broadcastInDim S100000x128 ![0, 1] bcast_S100000x1_S100000x128_0_1
              (broadcastInDim S100000x1 ![0] bcast_S100000_S100000x1_0
                (maximumf cnt (broadcastInDim S100000 ![] bcast_S_S100000 (constant S_ .f32 0x3F800000#32)))))) Wl)
          (broadcastInDim S100000x128 ![0, 1] bcast_S1x128_S100000x128_0_1 (broadcastInDim S1x128 ![1] bcast_S128_S1x128_1 bl)))
        (Host.dotGeneral dot_S100000x128_S128x128_S100000x128_1_0_0_1_n_n none hc Wr)) Wo)
    (broadcastInDim S100000x64 ![0, 1] bcast_S1x64_S100000x64_0_1 (broadcastInDim S1x64 ![1] bcast_S64_S1x64_1 bo))

/-- The whole network as a function of its twelve inputs. -/
def network (xc : FVec F S100000x256 .f32) (xu : FVec F S100000x128 .f32) (e : IVec S2x1600000 32)
    (Wc : FVec F S256x128 .f32) (bc : FVec F S128 .f32) (Wu : FVec F S128x128 .f32) (bu : FVec F S128 .f32)
    (Wl : FVec F S128x128 .f32) (bl : FVec F S128 .f32) (Wr : FVec F S128x128 .f32) (Wo : FVec F S128x64 .f32)
    (bo : FVec F S64 .f32) : FVec F S100000x64 .f32 :=
  tailOf (aggOf (msgOf (denseU xu Wu bu) (srcOf e)) (dstOf e)) (cntOf (dstOf e)) (denseC xc Wc bc) Wl bl Wr Wo bo

end Cert.Sage

end
-- ==== Proof.Take.lean ====
import proofs.«420283_j42666205119271_1_alg».proof.Proof.Gen.KernelIdeal
import Idealize.ShloMosaic.PureOps.Ideal

/-!
# The kernel's guarded row lookup

The kernel looks the user rows up edge by edge with a guard: a source node number is first counted from the end when
negative; the row of the table at that number is read; and where the number falls outside `0 … 99999` the whole row is
replaced by a filler value. Where every number is in range the guard never fires and the lookup is the plain one.
-/

noncomputable section

namespace Cert.KernelIdeal.Hand

open Idealize.ShloMosaic Cert.KernelIdeal Cert.KernelIdeal.Facts₀ Cert.KernelIdeal.Facts

variable {F : FTy → Type} [FloatOps F]

/-- The source node numbers, counted from the end when negative, as a one-column index table. -/
def idxCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per edge: is the (wrapped) source node number inside `0 … 99999`? -/
def inRange (s : IVec S1600000 32) : IVec S1600000 1 :=
  Host.reduce IntOp.andi
    (andi (cmpi .sge (idxCol s) (broadcastInDim S1600000x1 ![] bcast_S_S1600000x1 (constantI S_ 32 0#32)))
      (cmpi .sle (idxCol s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The guarded lookup: the table's row at the edge's source node where that is in range, a filler row elsewhere. -/
def takeOf (hu : FVec F S100000x128 .f32) (s : IVec S1600000 32) : FVec F S1600000x128 .f32 :=
  select (broadcastInDim S1600000x128 ![0] bcast_S1600000_S1600000x128_0 (inRange s))
    (Host.gather gather_S100000x128_S1600000x1_S1600000x128_1_0_n_n_0_1_1128 hu (idxCol s))
    (broadcastInDim S1600000x128 ![] bcast_S_S1600000x128 (constant S_ .f32 0x7FC00000#32))

end Cert.KernelIdeal.Hand

end
-- ==== Proof.HostChain.lean ====
import proofs.«420283_j42666205119271_1_alg».proof.Proof.Gen.KernelIdeal.Frame
import proofs.«420283_j42666205119271_1_alg».proof.Proof.Spec
import proofs.«420283_j42666205119271_1_alg».proof.Proof.Take
import Idealize.ShloMosaic.Lib.StableHlo.Run

/-!
# The buffers between the kernel's three calls

Between the two dense layers and the combine layer the program works on the host: it splits the edge list into its
source and destination rows, looks the user rows up edge by edge (the guarded lookup), sums them at their destinations,
counts the edges per destination, and recasts the counts as a column. Each buffer the combine layer reads is stated here
as that function of what the dense layers left and of the edge list; the buffers nobody writes are carried through.
Each stretch of host operations is read from ANY contents `X` of the buffers before it.
-/

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

section Stretches
variable (X : Valuation τ sig (Elt F))

/-! ## The split of the edge list -/

theorem split_src : StableHlo.after hostOps2 X (Proc.devRef .tc main_v3) = Cert.Sage.srcOf (X (Proc.devRef .tc main_arg2)) := by
  after_results
  rfl

theorem split_dst : StableHlo.after hostOps2 X (Proc.devRef .tc main_v5) = Cert.Sage.dstOf (X (Proc.devRef .tc main_arg2)) := by
  after_results
  rfl

theorem split_hu : StableHlo.after hostOps2 X (Proc.devRef .tc main_v1) = X (Proc.devRef .tc main_v1) := by
  after_results

theorem split_hc : StableHlo.after hostOps2 X (Proc.devRef .tc main_v0) = X (Proc.devRef .tc main_v0) := by
  after_results

/-! ## The guarded lookup -/

/-- A stretch of operations is its first `n` followed by the rest. -/
theorem after_take_drop {Val : EltTy → Type} (n : Nat) :
    ∀ (ops : List (HloOp τ sig Val)) (V : Valuation τ sig Val),
      StableHlo.after ops V = StableHlo.after (ops.drop n) (StableHlo.after (ops.take n) V) := by
  induction n with
  | zero => intro ops V; rfl
  | succ k ih =>
    intro ops V
    cases ops with
    | nil => rfl
    | cons op ops => exact ih ops _

/-- The first eighteen operations of the lookup end with the guard: per edge, whether the wrapped source node is in
    range (a conjunction along the one-entry column, which is read here as a whole and never opened). -/
theorem guard_read : StableHlo.after (List.take 18 hostOps2_1) X (Proc.devRef .tc main_call0_v12) = inRange (X (Proc.devRef .tc main_v3)) := by
  simp only [hostOps2_1, List.take_succ_cons, List.take_zero]
  after_results_simp
  refine (cast_eq _ _).trans ?_
  rfl

/-- They leave the wrapped source nodes in the index column. -/
theorem idx_read : StableHlo.after (List.take 18 hostOps2_1) X (Proc.devRef .tc main_call0_v5) = idxCol (X (Proc.devRef .tc main_v3)) := by
  simp only [hostOps2_1, List.take_succ_cons, List.take_zero]
  after_results_simp
  rfl

/-- They do not write the user rows. -/
theorem hu_read : StableHlo.after (List.take 18 hostOps2_1) X (Proc.devRef .tc main_v1) = X (Proc.devRef .tc main_v1) := by
  simp only [hostOps2_1, List.take_succ_cons, List.take_zero]
  after_results_simp

/-- The last five operations read the rows at the index column and keep them where the guard holds. -/
theorem select_read (Y : Valuation τ sig (Elt F)) : StableHlo.after (List.drop 18 hostOps2_1) Y (Proc.devRef .tc main_v6)
    = select (broadcastInDim S1600000x128 ![0] bcast_S1600000_S1600000x128_0 (Y (Proc.devRef .tc main_call0_v12)))
        (Host.gather gather_S100000x128_S1600000x1_S1600000x128_1_0_n_n_0_1_1128 (Y (Proc.devRef .tc main_v1)) (Y (Proc.devRef .tc main_call0_v5)))
        (broadcastInDim S1600000x128 ![] bcast_S_S1600000x128 (constant S_ .f32 0x7FC00000#32)) := by
  simp only [hostOps2_1, List.drop_succ_cons, List.drop_zero]
  after_results_simp
  rfl

theorem take_msg : StableHlo.after hostOps2_1 X (Proc.devRef .tc main_v6)
    = takeOf (X (Proc.devRef .tc main_v1)) (X (Proc.devRef .tc main_v3)) := by
  rw [after_take_drop 18 hostOps2_1 X, select_read, guard_read, idx_read, hu_read]
  rfl

set_option maxHeartbeats 2000000 in
theorem take_dst : StableHlo.after hostOps2_1 X (Proc.devRef .tc main_v5) = X (Proc.devRef .tc main_v5) := by
  after_results_simp

set_option maxHeartbeats 2000000 in
theorem take_hc : StableHlo.after hostOps2_1 X (Proc.devRef .tc main_v0) = X (Proc.devRef .tc main_v0) := by
  after_results_simp

/-! ## The sums at the destinations -/

set_option maxHeartbeats 2000000 in
theorem sum_agg : StableHlo.after hostOps2_2 X (Proc.devRef .tc main_v9)
    = Cert.Sage.aggOf (X (Proc.devRef .tc main_v6)) (X (Proc.devRef .tc main_v5)) := by
  after_results_simp
  rfl

set_option maxHeartbeats 2000000 in
theorem sum_cnt : StableHlo.after hostOps2_2 X (Proc.devRef .tc main_v14)
    = shapeCast S100000x1 (Cert.Sage.cntOf (F := F) (X (Proc.devRef .tc main_v5))) Facts₀.shapeCasts_S100000_S100000x1 := by
  after_results_simp
  rfl

set_option maxHeartbeats 2000000 in
theorem sum_hc : StableHlo.after hostOps2_2 X (Proc.devRef .tc main_v0) = X (Proc.devRef .tc main_v0) := by
  after_results_simp

end Stretches

/-! ## The same, at the run's boundaries -/

variable (m : (ℓ : Loc nD τ sig) → Buf (Elt F) ℓ) (ρ : Dev nD → PrngReg)

theorem W3_src (c : Dev nD) : W3 m ρ c (Proc.devRef .tc main_v3) = Cert.Sage.srcOf (W2 m ρ c (Proc.devRef .tc main_arg2)) :=
  split_src (W2 m ρ c)
theorem W3_dst (c : Dev nD) : W3 m ρ c (Proc.devRef .tc main_v5) = Cert.Sage.dstOf (W2 m ρ c (Proc.devRef .tc main_arg2)) :=
  split_dst (W2 m ρ c)
theorem W3_hu (c : Dev nD) : W3 m ρ c (Proc.devRef .tc main_v1) = W2 m ρ c (Proc.devRef .tc main_v1) := split_hu (W2 m ρ c)
theorem W3_hc (c : Dev nD) : W3 m ρ c (Proc.devRef .tc main_v0) = W2 m ρ c (Proc.devRef .tc main_v0) := split_hc (W2 m ρ c)
theorem W4_msg (c : Dev nD) : W4 m ρ c (Proc.devRef .tc main_v6)
    = takeOf (W3 m ρ c (Proc.devRef .tc main_v1)) (W3 m ρ c (Proc.devRef .tc main_v3)) := take_msg (W3 m ρ c)
theorem W4_dst (c : Dev nD) : W4 m ρ c (Proc.devRef .tc main_v5) = W3 m ρ c (Proc.devRef .tc main_v5) := take_dst (W3 m ρ c)
theorem W4_hc (c : Dev nD) : W4 m ρ c (Proc.devRef .tc main_v0) = W3 m ρ c (Proc.devRef .tc main_v0) := take_hc (W3 m ρ c)
theorem W5_agg (c : Dev nD) : W5 m ρ c (Proc.devRef .tc main_v9)
    = Cert.Sage.aggOf (W4 m ρ c (Proc.devRef .tc main_v6)) (W4 m ρ c (Proc.devRef .tc main_v5)) := sum_agg (W4 m ρ c)
theorem W5_cnt (c : Dev nD) : W5 m ρ c (Proc.devRef .tc main_v14)
    = shapeCast S100000x1 (Cert.Sage.cntOf (F := F) (W4 m ρ c (Proc.devRef .tc main_v5))) Facts₀.shapeCasts_S100000_S100000x1 :=
  sum_cnt (W4 m ρ c)
theorem W5_hc (c : Dev nD) : W5 m ρ c (Proc.devRef .tc main_v0) = W4 m ρ c (Proc.devRef .tc main_v0) := sum_hc (W4 m ρ c)

end Cert.KernelIdeal.Hand

end
-- ==== Proof.LibMatmulPlain.lean ====
import Idealize.ShloMosaic.PureOps.Ideal
import Idealize.ShloMosaic.PureOps.Ideal.Laws
import Idealize.ShloMosaic.Lib.ValueIdx
import Mathlib.Algebra.BigOperators.Group.Finset.Basic

/-!
# The plain matrix product of the matrix unit, read at an index

For the dimension numbers of an M×K by K×N product (the left operand contracted on its axis 1, the right on its
axis 0, no batch axes), the matrix unit's product into an accumulator is, at (p, n), the accumulator there plus
the sum over q of lhs(p, q) · rhs(q, n) on the extended reals.
-/

noncomputable section

open scoped BigOperators

namespace Cert.MatmulPlain

open Idealize.ShloMosaic Idealize.ShloMosaic.ValueIdx

variable {M K N : Nat} (D : DotDims ⟨2, ![M, K]⟩ ⟨2, ![K, N]⟩ ⟨2, ![M, N]⟩)

/-- The one contracted extent is the left operand's extent on its axis 1. -/
private theorem contr_size_plain (hlc : D.lhsContracting = [1]) (h0 : 0 < D.contr.rank) :
    D.contr.size ⟨0, h0⟩ = K := by
  have hp : 0 < D.lhsContracting.length := by rw [hlc]; exact Nat.one_pos
  have hsz := D.size_contr 0 hp
  have hK : ∀ (l : List (Fin 2)) (h : 0 < l.length), l = [1] → (⟨2, ![M, K]⟩ : Shape).size l[0] = K := by
    intro l h e; subst e; rfl
  exact hsz.trans (hK _ hp hlc)

/-- On the left operand's axis 0, its one non-contracting axis and the result's first, the left index reads the
    result index's first coordinate. -/
theorem lhsIdx_val_zero (hln : D.lhsNonContracting = [0]) (hlb : D.lhsBatch = [])
    (j : (⟨2, ![M, N]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln])

/-- On the left operand's axis 1, the contracted one, the left index reads the contraction position's coordinate. -/
theorem lhsIdx_val_one (hlc : D.lhsContracting = [1]) (j : (⟨2, ![M, N]⟩ : Shape).Idx) (k : D.contr.Idx) :
    (D.lhsIdx j k (1 : Fin 2)).val = (k ⟨0, by rw [D.rank_contr, hlc]; exact Nat.one_pos⟩).val :=
  D.lhsIdx_val_of_single hlc j k

/-- On the right operand's axis 0, the contracted one, the right index reads the contraction position's coordinate. -/
theorem rhsIdx_val_zero (hrc : D.rhsContracting = [0]) (j : (⟨2, ![M, N]⟩ : Shape).Idx) (k : D.contr.Idx) :
    (D.rhsIdx j k (0 : Fin 2)).val = (k ⟨0, by rw [D.rank_contr, ← D.length_contracting, hrc]; exact Nat.one_pos⟩).val :=
  D.rhsIdx_val_of_single hrc j k

/-- On the right operand's axis 1, its one non-contracting axis and the result's second (after the left operand's
    one), the right index reads the result index's second coordinate. -/
theorem rhsIdx_val_one (hln : D.lhsNonContracting = [0]) (hrn : D.rhsNonContracting = [1]) (hlb : D.lhsBatch = [])
    (hrb : D.rhsBatch = []) (j : (⟨2, ![M, N]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln, hrn])

/-- THE PRODUCT READ AT (p, n): the accumulator's entry plus the sum over the contracted position q of
    lhs(p, q) · rhs(q, n). -/
theorem matmul_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul D prec lhs rhs acc (ix2 p n) = acc (ix2 p n) + ∑ q : Fin K, lhs (ix2 p q) * rhs (ix2 q n) := by
  have hr : D.contr.rank = 1 := by rw [DotDims.rank_contr, hlc]; rfl
  have hs : D.contr.size ⟨0, by omega⟩ = K := contr_size_plain D hlc (by omega)
  rw [Ideal.matmul_apply]
  congr 1
  -- the contraction index set is its one coordinate's range: re-index the sum through that bijection
  rw [← Equiv.sum_comp (contrEquiv1 D K hr hs).symm]
  refine Finset.sum_congr rfl fun q _ => ?_
  have hl : D.lhsIdx (ix2 p n) ((contrEquiv1 D K hr hs).symm q) = ix2 p q := by
    funext a
    match a with
    | ⟨0, _⟩ => exact Fin.ext (lhsIdx_val_zero D hln hlb (ix2 p n) _)
    | ⟨1, _⟩ => exact Fin.ext ((lhsIdx_val_one D hlc (ix2 p n) _).trans (contrEquiv1_symm_val D K hr hs q))
  have hrr : D.rhsIdx (ix2 p n) ((contrEquiv1 D K hr hs).symm q) = ix2 q n := by
    funext a
    match a with
    | ⟨0, _⟩ => exact Fin.ext ((rhsIdx_val_zero D hrc (ix2 p n) _).trans (contrEquiv1_symm_val D K hr hs q))
    | ⟨1, _⟩ => exact Fin.ext (rhsIdx_val_one D hln hrn hlb hrb (ix2 p n) _)
  rw [hl, hrr]

end Cert.MatmulPlain

end
-- ==== Proof.LibDotPlain.lean ====
import Idealize.ShloMosaic.PureOps.Ideal
import Idealize.ShloMosaic.PureOps.Ideal.Laws
import Idealize.ShloMosaic.Lib.ValueIdx
import Mathlib.Algebra.BigOperators.Group.Finset.Basic
import proofs.«420283_j42666205119271_1_alg».proof.Proof.LibMatmulPlain

/-!
# The host's plain matrix product, read at an index

For the dimension numbers of an M×K by K×N product (the left operand contracted on its axis 1, the right on its
axis 0, no batch axes), the host's dot_general over the extended reals is, at (p, n), the sum over q of
lhs(p, q) · rhs(q, n). Over the extended reals the host's product is the same contraction as the matrix unit's
onto an accumulator that is zero everywhere, so the statement is the matrix unit's with the accumulator's
entry 0 dropped from the front of the sum.
-/

noncomputable section

open scoped BigOperators

namespace Cert.DotPlain

open Idealize.ShloMosaic Idealize.ShloMosaic.ValueIdx

variable {M K N : Nat} (D : DotDims ⟨2, ![M, K]⟩ ⟨2, ![K, N]⟩ ⟨2, ![M, N]⟩)

/-- THE HOST'S PRODUCT READ AT (p, n): the sum over the contracted position q of lhs(p, q) · rhs(q, n), whatever
    the precision mode and the schedule key. -/
theorem dot_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision) (sched : HostSchedule)
    (lhs : FVec Ideal ⟨2, ![M, K]⟩ φ₁) (rhs : FVec Ideal ⟨2, ![K, N]⟩ φ₂) (p : Fin M) (n : Fin N) :
    FloatOps.dotGeneral D prec sched lhs rhs (ix2 p n) = ∑ q : Fin K, lhs (ix2 p q) * rhs (ix2 q n) := by
  -- the host's product is the contraction onto the zero accumulator
  have hz : FloatOps.dotGeneral D prec sched lhs rhs (ix2 p n)
      = FloatOps.matmul D prec lhs rhs (fun _ => (0 : Ideal .f32)) (ix2 p n) := rfl
  rw [hz, Cert.MatmulPlain.matmul_plain_apply D hlc hrc hln hrn hlb hrb prec lhs rhs (fun _ => (0 : Ideal .f32)) p n]
  exact zero_add _

end Cert.DotPlain

end
-- ==== Proof.LibDenseRow.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Mathlib.Algebra.BigOperators.Group.Finset.Basic
import proofs.«420283_j42666205119271_1_alg».proof.Proof.LibMatmulPlain
import proofs.«420283_j42666205119271_1_alg».proof.Proof.LibDotPlain

/-!
# A dense layer with ReLU, one row at a time

A dense layer sends a row `h` of `K` entries to the row `n ↦ max (∑ q, h q · W q n + b n) 0` of `N` entries, over the
extended reals. A matrix of `M` rows goes through the layer row by row, so every vector operation the layer is made
of — the matrix product into a zero accumulator or the host's product, the bias laid along every row, the maximum
with zero — is read here on ONE ROW of its operand: the row of the result is a function of the same row of the
operand and of the whole weight matrix and bias. The statements are general in the three extents.
-/

noncomputable section

open scoped BigOperators

namespace Cert.Mlp

open Idealize.ShloMosaic Idealize.ShloMosaic.ValueIdx

/-! ## Rows -/

/-- The row times the matrix: entry `n` is `∑ q, h q · W q n`. -/
def lin {K N : Nat} (W : Fin K → Fin N → EReal) (h : Fin K → EReal) : Fin N → EReal := fun n => ∑ q : Fin K, h q * W q n

/-- Two rows added entry by entry. -/
def addRow {N : Nat} (u b : Fin N → EReal) : Fin N → EReal := fun n => u n + b n

/-- The maximum with zero, entry by entry. -/
def relu {N : Nat} (u : Fin N → EReal) : Fin N → EReal := fun n => max (u n) 0

/-- One dense layer with ReLU on a row. -/
def dense {K N : Nat} (W : Fin K → Fin N → EReal) (b : Fin N → EReal) (h : Fin K → EReal) : Fin N → EReal :=
  relu (addRow (lin W h) b)

/-- A rank-2 array as a function of its two coordinates. -/
def mat {K N : Nat} (W : (⟨2, ![K, N]⟩ : Shape).Idx → EReal) : Fin K → Fin N → EReal := fun q n => W (ix2 q n)

/-- Row `p` of a rank-2 array. -/
def rowAt {M K : Nat} (X : (⟨2, ![M, K]⟩ : Shape).Idx → EReal) (p : Fin M) : Fin K → EReal := fun q => X (ix2 p q)

/-- The one row of a `[1, N]` array. -/
def rowOf {N : Nat} (b : (⟨2, ![1, N]⟩ : Shape).Idx → EReal) : Fin N → EReal := fun n => b (ix2 (0 : Fin 1) n)

/-- A rank-1 array as a function of its coordinate. -/
def vecOf {N : Nat} (b : (⟨1, ![N]⟩ : Shape).Idx → EReal) : Fin N → EReal := fun n => b (ix1 n)

/-! ## Format changes and same-shape casts are the identity on the extended reals -/

/-- Narrowing the float format changes nothing at the extended reals. -/
theorem truncf_id {s : Shape} {φ ψ : FTy} (x : FVec Ideal s φ) (h : ψ.bits < φ.bits) : truncf ψ x h = x := rfl

/-! ## The matrix unit's side, on a row -/

section Mxu
variable {M K N : Nat} (D : DotDims ⟨2, ![M, K]⟩ ⟨2, ![K, N]⟩ ⟨2, ![M, N]⟩)

/-- Row `p` of the product into a zero accumulator is row `p` of the left operand times the right operand. -/
theorem mxu_rowAt (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (p : Fin M) :
    rowAt (matmul D prec lhs rhs (constant (F := Ideal) ⟨2, ![M, N]⟩ .f32 0x00000000#32)) p = lin (mat rhs) (rowAt lhs p) := by
  funext n
  show FloatOps.matmul D prec lhs rhs (constant (F := Ideal) ⟨2, ![M, N]⟩ .f32 0x00000000#32) (ix2 p n) = _
  rw [Cert.MatmulPlain.matmul_plain_apply D hlc hrc hln hrn hlb hrb prec lhs rhs _ p n]
  show Ideal.ofBits .f32 0x00000000#32 + _ = _
  rw [Ideal.ofBits_zero_f32, zero_add]
  rfl

/-- Row `p` of the host's product is row `p` of the left operand times the right operand. -/
theorem dot_rowAt (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (p : Fin M) :
    rowAt (Host.dotGeneral D prec lhs rhs) p = lin (mat rhs) (rowAt lhs p) := by
  funext n
  show FloatOps.dotGeneral D prec .single lhs rhs (ix2 p n) = _
  rw [Cert.DotPlain.dot_plain_apply D hlc hrc hln hrn hlb hrb prec .single lhs rhs p n]
  rfl

end Mxu

/-! ## The bias and the maximum with zero, on a row -/

section Pointwise
variable {M N : Nat}

/-- Row `p` of a matrix plus a one-row array laid along every row. -/
theorem bias_rowAt (v : FVec Ideal ⟨2, ![M, N]⟩ .f32) (b : FVec Ideal ⟨2, ![1, N]⟩ .f32)
    (hb : (⟨2, ![1, N]⟩ : Shape).Broadcasts ⟨2, ![M, N]⟩) (p : Fin M) :
    rowAt (addf v (broadcastTo ⟨2, ![M, N]⟩ b hb)) p = addRow (rowAt v p) (rowOf b) := by
  funext n
  show v (ix2 p n) + broadcastTo ⟨2, ![M, N]⟩ b hb (ix2 p n) = _
  rw [broadcastTo_1b_ab_apply]
  rfl

/-- Row `p` of the maximum of a matrix with the zero scalar spread over its shape (the kernel's spelling). -/
theorem relu_rowAt (v : FVec Ideal ⟨2, ![M, N]⟩ .f32) (p : Fin M) :
    rowAt (maximumf v (broadcast ⟨2, ![M, N]⟩ (Scalar.ofBits (F := Ideal) .f32 0x00000000#32))) p = relu (rowAt v p) := by
  funext n
  show max (v (ix2 p n)) (Ideal.ofBits .f32 0x00000000#32) = _
  rw [Ideal.ofBits_zero_f32]
  rfl

/-- Row `p` of a matrix plus a rank-1 array laid along every row through a one-row array (the host's spelling). -/
theorem hostBias_rowAt (v : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) :
    rowAt (addf v (broadcastInDim ⟨2, ![M, N]⟩ ![0, 1] h2 (broadcastInDim ⟨2, ![1, N]⟩ ![1] h1 b))) p
      = addRow (rowAt v p) (vecOf b) := by
  funext n
  show v (ix2 p n) + broadcastInDim ⟨2, ![M, N]⟩ ![0, 1] h2 (broadcastInDim ⟨2, ![1, N]⟩ ![1] h1 b) (ix2 p n) = _
  rw [Idealize.ShloMosaic.broadcastInDim_oneRow_apply]
  have e : broadcastInDim ⟨2, ![1, N]⟩ ![1] h1 b (ix2 (0 : Fin 1) n) = b (ix1 n) := by
    refine broadcastInDim_apply ![1] h1 b (ix2 (0 : Fin 1) n) (ix1 n) fun a => ?_
    match a with
    | ⟨0, _⟩ =>
      show n.val = if N = 1 then 0 else n.val
      split
      · have := n.isLt; omega
      · rfl
  rw [e]
  rfl

/-- Row `p` of the maximum of a matrix with the zero scalar array spread over its shape (the host's spelling). -/
theorem hostRelu_rowAt (v : FVec Ideal ⟨2, ![M, N]⟩ .f32)
    (h0 : (⟨0, ![]⟩ : Shape).BroadcastsInDim ⟨2, ![M, N]⟩ ![]) (p : Fin M) :
    rowAt (maximumf v (broadcastInDim ⟨2, ![M, N]⟩ ![] h0 (constant (F := Ideal) ⟨0, ![]⟩ .f32 0x00000000#32))) p
      = relu (rowAt v p) := by
  funext n
  show max (v (ix2 p n)) (broadcastInDim ⟨2, ![M, N]⟩ ![] h0 (constant (F := Ideal) ⟨0, ![]⟩ .f32 0x00000000#32) (ix2 p n)) = _
  rw [broadcastInDim_scalar_apply]
  show max (v (ix2 p n)) (Ideal.ofBits .f32 0x00000000#32) = _
  rw [Ideal.ofBits_zero_f32]
  rfl

/-- A rank-1 array recast as one row has that array as its row. -/
theorem rowOf_shapeCast (b : (⟨1, ![N]⟩ : Shape).Idx → EReal) (h : (⟨1, ![N]⟩ : Shape).ShapeCasts ⟨2, ![1, N]⟩) :
    rowOf (shapeCast ⟨2, ![1, N]⟩ b h) = vecOf b := by
  funext n
  show shapeCast ⟨2, ![1, N]⟩ b h (ix2 (0 : Fin 1) n) = b (ix1 n)
  exact shapeCast_a_1a_apply b h 0 n

end Pointwise

end Cert.Mlp

end
-- ==== Proof.Region0.lean ====
import proofs.«420283_j42666205119271_1_alg».proof.Proof.Gen.KernelIdeal.Frame
import proofs.«420283_j42666205119271_1_alg».proof.Proof.Spec
import proofs.«420283_j42666205119271_1_alg».proof.Proof.LibDenseRow
import Idealize.ShloMosaic.Lib.Pipeline.Value

/-!
# The content nodes' dense layer: what the first grid leaves in its output array

The grid has 20 points; point `t` reads rows `5000 t … 5000 t + 4999` of the 100000 × 256 input, the whole
256 × 128 weight matrix and the whole bias, and writes rows `5000 t … 5000 t + 4999` of the 100000 × 128 output.
Row `p` of what a point stores is the dense layer with ReLU of row `p` of its input block, and that row is row
`5000 t + p` of the input array; the same row of the reference's array is the same dense layer of the same row.
The blocks of the 20 points tile the output array (row `r` lies in the block of point `r / 5000`), so the array
ends holding the reference's function of the three arrays.
-/

noncomputable section

namespace Cert.KernelIdeal.Hand.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.KernelIdeal.Facts
open Cert.Mlp

variable (V : (c : Dev nD) → (b : Ref sig .tc) → Buf (Elt Ideal) ((c : Thread nD τ).loc b))

/-! ## One row of the layer, in the kernel's spelling and in the reference's -/

/-- Row `p` of what a point stores is `max (h · W + b) 0` of row `p` of its input block `x`: narrowing the
    operands' format is the identity, the product starts from a zero accumulator, the bias is laid along every row. -/
theorem pay_row (x : Vec Ideal S5000x256 .f32) (W : Vec Ideal S256x128 .f32) (b : Vec Ideal S128 .f32) (p : Fin 5000) :
    rowAt (k0_pay1 (F := Ideal) x W b) p = dense (mat W) (vecOf b) (rowAt x p) := by
  unfold k0_pay1
  dsimp only
  rw [relu_rowAt, bias_rowAt, mxu_rowAt _ rfl rfl rfl rfl rfl rfl, rowOf_shapeCast]
  rfl

/-- Row `r` of the reference's layer is `max (h · W + b) 0` of row `r` of the input array. -/
theorem ref_row (X : FVec Ideal S100000x256 .f32) (W : FVec Ideal S256x128 .f32) (b : FVec Ideal S128 .f32) (r : Fin 100000) :
    rowAt (Cert.Sage.denseC (F := Ideal) X W b) r = dense (mat W) (vecOf b) (rowAt X r) := by
  unfold Cert.Sage.denseC
  rw [hostRelu_rowAt, hostBias_rowAt, dot_rowAt _ rfl rfl rfl rfl rfl rfl]
  rfl

/-! ## Which block each window is on at a point -/

/-- At point `t` the input and the output are on row block `t` (column block 0); the weights and the bias are on
    their one block. Decided over the 20 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem hz : (![0, 0] : Fin 2 → Nat) = fun _ => 0 := funext fun a => by fin_cases a <;> rfl
theorem hz1 : (![0] : Fin 1 → Nat) = fun _ => 0 := funext fun a => by fin_cases a; rfl

/-! ## The input blocks as parts of their arrays -/

/-- Row `p` of the input block at point `t` is row `5000 t + p` of the input array: a block's coordinate is the
    block index times the block's extent plus the coordinate inside the block. -/
theorem xblock_row (c : Dev nD) (t : Fin cfg0.N) (p : Fin 5000) (r : Fin 100000) (hr : r.val = t.val * 5000 + p.val) :
    rowAt (iblk0 (F := Ideal) V c 0 t) p = rowAt (V c main_arg0) r := by
  obtain ⟨e0, e1, -⟩ := idx_facts t
  funext q
  show iblk0 V c 0 t (ix2 p q) = V c main_arg0 (ix2 r q)
  unfold iblk0
  rw [View.read_apply]
  show V c main_arg0 (((cfg0.win 0).blk t).view.emb (ix2 p q)) = V c main_arg0 (ix2 r q)
  congr 1
  funext a; apply Fin.ext
  match a with
  | ⟨0, _⟩ => show win0_0.index t (0 : Fin 2) * 5000 + 1 * p.val = r.val; omega
  | ⟨1, _⟩ => show win0_0.index t (1 : Fin 2) * 256 + 1 * q.val = q.val; omega

/-- The weights' block at every point is the whole weight matrix. -/
theorem wblock_eq (c : Dev nD) (t : Fin cfg0.N) : iblk0 (F := Ideal) V c 1 t = V c main_arg3 := by
  obtain ⟨-, -, e0, e1, -⟩ := idx_facts t
  funext y
  unfold iblk0
  rw [View.read_apply]
  show V c main_arg3 (((cfg0.win 1).blk t).view.emb y) = V c main_arg3 y
  congr 1
  funext a; apply Fin.ext
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The bias's block at every point is the whole bias. -/
theorem bblock_eq (c : Dev nD) (t : Fin cfg0.N) : iblk0 (F := Ideal) V c 2 t = V c main_arg4 := by
  obtain ⟨-, -, -, -, e0, -⟩ := idx_facts t
  funext y
  unfold iblk0
  rw [View.read_apply]
  show V c main_arg4 (((cfg0.win 2).blk t).view.emb y) = V c main_arg4 y
  congr 1
  funext a; apply Fin.ext
  match a with
  | ⟨0, _⟩ => show win0_2.index t (0 : Fin 1) * 128 + 1 * (y 0).val = (y 0).val; omega

/-! ## What a point writes back, and the cover -/

/-- What point `t` writes back is block `t` of the reference's layer of the three arrays: entry `(p, n)` of the
    stored block and entry `(5000 t + p, n)` of the reference's array are the same dense layer of the same row. -/
theorem flushed_eq (c : Dev nD) (t : Fin cfg0.N) :
    (dat0 (F := Ideal) V c).flushed 3 t
      = ((cfg0.win 3).blk t).view.read (Elt Ideal) (Cert.Sage.denseC (F := Ideal) (V c main_arg0) (V c main_arg3) (V c main_arg4)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S128) hz1]
  rw [wblock_eq, bblock_eq]
  funext j
  obtain ⟨p, n, rfl⟩ : ∃ (p : Fin 5000) (n : Fin 128), j = ix2 p n := ⟨j 0, j 1, eq_ix2 j⟩
  obtain ⟨-, -, -, -, -, e0, e1⟩ := idx_facts t
  have ht : t.val < 20 := Nat.lt_of_lt_of_eq t.isLt N_0
  have hr : t.val * 5000 + p.val < 100000 := by omega
  have hx : (cfg0.win 3).xinj (grid0.coords t) (ix2 p n) = ix2 p n := by
    funext a; match a with | ⟨0, _⟩ => rfl | ⟨1, _⟩ => rfl
  have hemb : ((cfg0.win 3).blk t).view.emb (ix2 p n) = ix2 (⟨t.val * 5000 + p.val, hr⟩ : Fin 100000) n := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * n.val = n.val; omega
  rw [View.read_apply]
  show k0_pay1 (iblk0 V c 0 t) (V c main_arg3) (V c main_arg4) ((cfg0.win 3).xinj (grid0.coords t) (ix2 p n))
    = Cert.Sage.denseC (F := Ideal) (V c main_arg0) (V c main_arg3) (V c main_arg4) (((cfg0.win 3).blk t).view.emb (ix2 p n))
  rw [hx, hemb]
  exact (congrFun (pay_row _ _ _ p) n).trans
    ((congrArg (fun h => dense (mat (V c main_arg3)) (vecOf (V c main_arg4)) h n) (xblock_row V c t p ⟨_, hr⟩ rfl)).trans
      (congrFun (ref_row _ _ _ ⟨_, hr⟩) n).symm)

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Every index of the output array is in the block of a point that writes back: row `r` in that of point `r / 5000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, e0, e1⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

end Cert.KernelIdeal.Hand.Region0

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- After the 20 points the output array holds the reference's dense layer with ReLU of the arrays the grid found. -/
theorem region0_value (c : Dev nD) :
    (dat0 (F := Ideal) V c).arrAt 3 cfg0.N = Cert.Sage.denseC (F := Ideal) (V c main_arg0) (V c main_arg3) (V c main_arg4) :=
  (dat0 V c).arrAt_eq_of_cover 3 _ (fun t _ => Region0.flushed_eq V c t) Region0.cover

end Cert.KernelIdeal.Hand

end
-- ==== Proof.Region1.lean ====
import proofs.«420283_j42666205119271_1_alg».proof.Proof.Gen.KernelIdeal.Frame
import proofs.«420283_j42666205119271_1_alg».proof.Proof.Spec
import proofs.«420283_j42666205119271_1_alg».proof.Proof.LibDenseRow
import Idealize.ShloMosaic.Lib.Pipeline.Value

/-!
# The user nodes' dense layer: what the second grid leaves in its output array

The grid has 20 points; point `t` reads rows `5000 t … 5000 t + 4999` of the 100000 × 128 input, the whole
128 × 128 weight matrix and the whole bias, and writes rows `5000 t … 5000 t + 4999` of the 100000 × 128 output.
Row `p` of what a point stores is the dense layer with ReLU of row `p` of its input block, and that row is row
`5000 t + p` of the input array; the same row of the reference's array is the same dense layer of the same row.
The blocks of the 20 points tile the output array (row `r` lies in the block of point `r / 5000`), so the array
ends holding the reference's function of the three arrays.
-/

noncomputable section

namespace Cert.KernelIdeal.Hand.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.KernelIdeal.Facts
open Cert.Mlp

variable (V : (c : Dev nD) → (b : Ref sig .tc) → Buf (Elt Ideal) ((c : Thread nD τ).loc b))

/-! ## One row of the layer, in the kernel's spelling and in the reference's -/

/-- Row `p` of what a point stores is `max (h · W + b) 0` of row `p` of its input block `x`: narrowing the
    operands' format is the identity, the product starts from a zero accumulator, the bias is laid along every row. -/
theorem pay_row (x : Vec Ideal S5000x128 .f32) (W : Vec Ideal S128x128 .f32) (b : Vec Ideal S128 .f32) (p : Fin 5000) :
    rowAt (k1_pay1 (F := Ideal) x W b) p = dense (mat W) (vecOf b) (rowAt x p) := by
  unfold k1_pay1
  dsimp only
  rw [relu_rowAt, bias_rowAt, mxu_rowAt _ rfl rfl rfl rfl rfl rfl, rowOf_shapeCast]
  rfl

/-- Row `r` of the reference's layer is `max (h · W + b) 0` of row `r` of the input array. -/
theorem ref_row (X : FVec Ideal S100000x128 .f32) (W : FVec Ideal S128x128 .f32) (b : FVec Ideal S128 .f32) (r : Fin 100000) :
    rowAt (Cert.Sage.denseU (F := Ideal) X W b) r = dense (mat W) (vecOf b) (rowAt X r) := by
  unfold Cert.Sage.denseU
  rw [hostRelu_rowAt, hostBias_rowAt, dot_rowAt _ rfl rfl rfl rfl rfl rfl]
  rfl

/-! ## Which block each window is on at a point -/

/-- At point `t` the input and the output are on row block `t` (column block 0); the weights and the bias are on
    their one block. Decided over the 20 points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem hz : (![0, 0] : Fin 2 → Nat) = fun _ => 0 := funext fun a => by fin_cases a <;> rfl
theorem hz1 : (![0] : Fin 1 → Nat) = fun _ => 0 := funext fun a => by fin_cases a; rfl

/-! ## The input blocks as parts of their arrays -/

/-- Row `p` of the input block at point `t` is row `5000 t + p` of the input array: a block's coordinate is the
    block index times the block's extent plus the coordinate inside the block. -/
theorem xblock_row (c : Dev nD) (t : Fin cfg1.N) (p : Fin 5000) (r : Fin 100000) (hr : r.val = t.val * 5000 + p.val) :
    rowAt (iblk1 (F := Ideal) V c 0 t) p = rowAt (V c main_arg1) r := by
  obtain ⟨e0, e1, -⟩ := idx_facts t
  funext q
  show iblk1 V c 0 t (ix2 p q) = V c main_arg1 (ix2 r q)
  unfold iblk1
  rw [View.read_apply]
  show V c main_arg1 (((cfg1.win 0).blk t).view.emb (ix2 p q)) = V c main_arg1 (ix2 r q)
  congr 1
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

/-- The weights' block at every point is the whole weight matrix. -/
theorem wblock_eq (c : Dev nD) (t : Fin cfg1.N) : iblk1 (F := Ideal) V c 1 t = V c main_arg5 := by
  obtain ⟨-, -, e0, e1, -⟩ := idx_facts t
  funext y
  unfold iblk1
  rw [View.read_apply]
  show V c main_arg5 (((cfg1.win 1).blk t).view.emb y) = V c main_arg5 y
  congr 1
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias's block at every point is the whole bias. -/
theorem bblock_eq (c : Dev nD) (t : Fin cfg1.N) : iblk1 (F := Ideal) V c 2 t = V c main_arg6 := by
  obtain ⟨-, -, -, -, e0, -⟩ := idx_facts t
  funext y
  unfold iblk1
  rw [View.read_apply]
  show V c main_arg6 (((cfg1.win 2).blk t).view.emb y) = V c main_arg6 y
  congr 1
  funext a; apply Fin.ext
  match a with
  | ⟨0, _⟩ => show win1_2.index t (0 : Fin 1) * 128 + 1 * (y 0).val = (y 0).val; omega

/-! ## What a point writes back, and the cover -/

/-- What point `t` writes back is block `t` of the reference's layer of the three arrays: entry `(p, n)` of the
    stored block and entry `(5000 t + p, n)` of the reference's array are the same dense layer of the same row. -/
theorem flushed_eq (c : Dev nD) (t : Fin cfg1.N) :
    (dat1 (F := Ideal) V c).flushed 3 t
      = ((cfg1.win 3).blk t).view.read (Elt Ideal) (Cert.Sage.denseU (F := Ideal) (V c main_arg1) (V c main_arg5) (V c main_arg6)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S128) hz1]
  rw [wblock_eq, bblock_eq]
  funext j
  obtain ⟨p, n, rfl⟩ : ∃ (p : Fin 5000) (n : Fin 128), j = ix2 p n := ⟨j 0, j 1, eq_ix2 j⟩
  obtain ⟨-, -, -, -, -, e0, e1⟩ := idx_facts t
  have ht : t.val < 20 := Nat.lt_of_lt_of_eq t.isLt N_1
  have hr : t.val * 5000 + p.val < 100000 := by omega
  have hx : (cfg1.win 3).xinj (grid1.coords t) (ix2 p n) = ix2 p n := by
    funext a; match a with | ⟨0, _⟩ => rfl | ⟨1, _⟩ => rfl
  have hemb : ((cfg1.win 3).blk t).view.emb (ix2 p n) = ix2 (⟨t.val * 5000 + p.val, hr⟩ : Fin 100000) n := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * n.val = n.val; omega
  rw [View.read_apply]
  show k1_pay1 (iblk1 V c 0 t) (V c main_arg5) (V c main_arg6) ((cfg1.win 3).xinj (grid1.coords t) (ix2 p n))
    = Cert.Sage.denseU (F := Ideal) (V c main_arg1) (V c main_arg5) (V c main_arg6) (((cfg1.win 3).blk t).view.emb (ix2 p n))
  rw [hx, hemb]
  exact (congrFun (pay_row _ _ _ p) n).trans
    ((congrArg (fun h => dense (mat (V c main_arg5)) (vecOf (V c main_arg6)) h n) (xblock_row V c t p ⟨_, hr⟩ rfl)).trans
      (congrFun (ref_row _ _ _ ⟨_, hr⟩) n).symm)

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v1).slice (win1_3.rect t)).set ↔ _
  rw [View.set_slice_whole, Rect.mem_set_unit]
  exact Iff.rfl

/-- Every index of the output array is in the block of a point that writes back: row `r` in that of point `r / 5000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, e0, e1⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

end Cert.KernelIdeal.Hand.Region1

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- After the 20 points the output array holds the reference's dense layer with ReLU of the arrays the grid found. -/
theorem region1_value (c : Dev nD) :
    (dat1 (F := Ideal) V c).arrAt 3 cfg1.N = Cert.Sage.denseU (F := Ideal) (V c main_arg1) (V c main_arg5) (V c main_arg6) :=
  (dat1 V c).arrAt_eq_of_cover 3 _ (fun t _ => Region1.flushed_eq V c t) Region1.cover

end Cert.KernelIdeal.Hand

end
-- ==== Proof.LibCombineRow.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Mathlib.Algebra.BigOperators.Group.Finset.Basic
import proofs.«420283_j42666205119271_1_alg».proof.Proof.LibDenseRow

/-!
# The combine layer, one row at a time

A content node's row of the result is a function of three things of that node — its row `a` of summed messages, the
number `c` of messages that arrived, its own hidden row `h` — and of the whole weight matrices and biases:

  mean  = a / max c 1                       (entry by entry)
  u     = (mean · Wl + bl) + h · Wr
  out   = u · Wo + bo

over the extended reals. Both programs compute this row by row: the kernel on a block of rows with the matrix unit
into a zero accumulator, the count read off a one-column array; the reference on the whole array with the host's
product, the count read off a rank-1 array. Each is read here on ONE ROW and shown to be `combine` of that row.
The statements are general in the four extents.
-/

noncomputable section

open scoped BigOperators

namespace Cert.Combine

open Idealize.ShloMosaic Idealize.ShloMosaic.ValueIdx Cert.Mlp

/-! ## The row function -/

/-- A row of sums divided, entry by entry, by the count raised to at least one. -/
def meanRow {K : Nat} (a : Fin K → EReal) (c : EReal) : Fin K → EReal := fun l => Ideal.div (a l) (max c 1)

/-- The combine layer on one row: `((a / max c 1) · Wl + bl + h · Wr) · Wo + bo`. -/
def combine {K H N : Nat} (Wl : Fin K → Fin H → EReal) (bl : Fin H → EReal) (Wr : Fin K → Fin H → EReal)
    (Wo : Fin H → Fin N → EReal) (bo : Fin N → EReal) (a : Fin K → EReal) (c : EReal) (h : Fin K → EReal) :
    Fin N → EReal :=
  addRow (lin Wo (addRow (addRow (lin Wl (meanRow a c)) bl) (lin Wr h))) bo

/-! ## Small readings at an index -/

section Readings
variable {α : Type}

/-- A one-column array spread along the rows of a wider one reads, at `(p, l)`, the column's entry of row `p`
    (the vector unit's broadcast). -/
theorem broadcastTo_a1_ab_apply {a b : Nat} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- The same spread in the host's spelling. -/
theorem broadcastInDim_a1_ab_apply {a b : Nat} (v : (⟨2, ![a, 1]⟩ : Shape).Idx → α)
    (h : (⟨2, ![a, 1]⟩ : Shape).BroadcastsInDim ⟨2, ![a, b]⟩ ![0, 1]) (p : Fin a) (l : Fin b) :
    broadcastInDim ⟨2, ![a, b]⟩ ![0, 1] h v (ix2 p l) = v (ix2 p (0 : Fin 1)) := by
  refine broadcastInDim_apply ![0, 1] h v (ix2 p l) (ix2 p (0 : Fin 1)) fun ax => ?_
  match ax with
  | ⟨0, _⟩ =>
    show p.val = if a = 1 then 0 else p.val
    split
    · have := p.isLt; omega
    · rfl
  | ⟨1, _⟩ => rfl

/-- A rank-1 array stood up as one column reads, at `(p, 0)`, its entry `p` (the host's spelling). -/
theorem broadcastInDim_a_a1_apply {a : Nat} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A rank-1 array recast as one column reads, at `(p, 0)`, its entry `p`. -/
theorem shapeCast_a_a1_apply {a : Nat} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Readings

/-- Row `p` of a sum of two matrices is the sum of their rows. -/
theorem addf_rowAt {M N : Nat} (u v : FVec Ideal ⟨2, ![M, N]⟩ .f32) (p : Fin M) :
    rowAt (addf u v) p = addRow (rowAt u p) (rowAt v p) := rfl

/-! ## The kernel's side, on a row -/

section Kernel
variable {M K H N : Nat}

/-- Row `p` of the block of sums divided by the one-column block of counts raised to at least one. -/
theorem mean_rowAt (agg : FVec Ideal ⟨2, ![M, K]⟩ .f32) (cnt : FVec Ideal ⟨2, ![M, 1]⟩ .f32)
    (hK : (⟨2, ![M, K]⟩ : Shape).ShapeCasts ⟨2, ![M, K]⟩) (h1 : (⟨2, ![M, 1]⟩ : Shape).ShapeCasts ⟨2, ![M, 1]⟩)
    (hb : (⟨2, ![M, 1]⟩ : Shape).Broadcasts ⟨2, ![M, K]⟩) (p : Fin M) :
    rowAt (divf (shapeCast ⟨2, ![M, K]⟩ agg hK)
        (broadcastTo ⟨2, ![M, K]⟩ (maximumf (shapeCast ⟨2, ![M, 1]⟩ cnt h1)
          (broadcast ⟨2, ![M, 1]⟩ (Scalar.ofBits (F := Ideal) .f32 0x3F800000#32))) hb)) p
      = meanRow (rowAt agg p) (cnt (ix2 p (0 : Fin 1))) := by
  funext l
  rw [shapeCast_self, shapeCast_self]
  show Ideal.div (agg (ix2 p l)) (broadcastTo ⟨2, ![M, K]⟩ (maximumf cnt
      (broadcast ⟨2, ![M, 1]⟩ (Scalar.ofBits (F := Ideal) .f32 0x3F800000#32))) hb (ix2 p l)) = _
  rw [broadcastTo_a1_ab_apply]
  show Ideal.div (agg (ix2 p l)) (max (cnt (ix2 p (0 : Fin 1))) (Ideal.ofBits .f32 0x3F800000#32)) = _
  rw [Ideal.ofBits_one_f32]
  rfl

/-- Row `p` of a product on the matrix unit into a zero accumulator, its operands narrowed first (the identity on
    the extended reals). -/
theorem mxuNarrow_rowAt (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1]) (hlb : D.lhsBatch = []) (hrb : D.rhsBatch = [])
    (hbits : FTy.bits .bf16 < FTy.bits .f32)
    (x : FVec Ideal ⟨2, ![M, K]⟩ .f32) (W : FVec Ideal ⟨2, ![K, N]⟩ .f32) (p : Fin M) :
    rowAt (matmul D none (truncf .bf16 x hbits) (truncf .bf16 W hbits)
        (constant (F := Ideal) ⟨2, ![M, N]⟩ .f32 0x00000000#32)) p = lin (mat W) (rowAt x p) :=
  (mxu_rowAt D hlc hrc hln hrn hlb hrb none (truncf .bf16 x hbits) (truncf .bf16 W hbits) p).trans rfl

/-- Row `p` of such a product plus a rank-1 bias recast as one row and laid along every row. -/
theorem mxuNarrowBias_rowAt (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1]) (hlb : D.lhsBatch = []) (hrb : D.rhsBatch = [])
    (hbits : FTy.bits .bf16 < FTy.bits .f32)
    (x : FVec Ideal ⟨2, ![M, K]⟩ .f32) (W : FVec Ideal ⟨2, ![K, N]⟩ .f32) (b : FVec Ideal ⟨1, ![N]⟩ .f32)
    (hs : (⟨1, ![N]⟩ : Shape).ShapeCasts ⟨2, ![1, N]⟩) (hb : (⟨2, ![1, N]⟩ : Shape).Broadcasts ⟨2, ![M, N]⟩) (p : Fin M) :
    rowAt (addf (matmul D none (truncf .bf16 x hbits) (truncf .bf16 W hbits)
          (constant (F := Ideal) ⟨2, ![M, N]⟩ .f32 0x00000000#32))
        (broadcastTo ⟨2, ![M, N]⟩ (shapeCast ⟨2, ![1, N]⟩ b hs) hb)) p
      = addRow (lin (mat W) (rowAt x p)) (vecOf b) := by
  rw [bias_rowAt, rowOf_shapeCast, mxuNarrow_rowAt D hlc hrc hln hrn hlb hrb]

/-- THE KERNEL'S BLOCK, ROW `p`: the combine layer as the kernel spells it on a block of `M` rows is `combine` of
    row `p` of the block of sums, the count in row `p` of the one-column block of counts, and row `p` of the block
    of hidden rows. -/
theorem kernel_rowAt (D₁ : DotDims ⟨2, ![M, K]⟩ ⟨2, ![K, H]⟩ ⟨2, ![M, H]⟩)
    (hlc₁ : D₁.lhsContracting = [1]) (hrc₁ : D₁.rhsContracting = [0])
    (hln₁ : D₁.lhsNonContracting = [0]) (hrn₁ : D₁.rhsNonContracting = [1]) (hlb₁ : D₁.lhsBatch = []) (hrb₁ : D₁.rhsBatch = [])
    (D₂ : DotDims ⟨2, ![M, H]⟩ ⟨2, ![H, N]⟩ ⟨2, ![M, N]⟩)
    (hlc₂ : D₂.lhsContracting = [1]) (hrc₂ : D₂.rhsContracting = [0])
    (hln₂ : D₂.lhsNonContracting = [0]) (hrn₂ : D₂.rhsNonContracting = [1]) (hlb₂ : D₂.lhsBatch = []) (hrb₂ : D₂.rhsBatch = [])
    (hbits : FTy.bits .bf16 < FTy.bits .f32)
    (hK : (⟨2, ![M, K]⟩ : Shape).ShapeCasts ⟨2, ![M, K]⟩) (h1 : (⟨2, ![M, 1]⟩ : Shape).ShapeCasts ⟨2, ![M, 1]⟩)
    (hb1 : (⟨2, ![M, 1]⟩ : Shape).Broadcasts ⟨2, ![M, K]⟩)
    (hsH : (⟨1, ![H]⟩ : Shape).ShapeCasts ⟨2, ![1, H]⟩) (hbH : (⟨2, ![1, H]⟩ : Shape).Broadcasts ⟨2, ![M, H]⟩)
    (hsN : (⟨1, ![N]⟩ : Shape).ShapeCasts ⟨2, ![1, N]⟩) (hbN : (⟨2, ![1, N]⟩ : Shape).Broadcasts ⟨2, ![M, N]⟩)
    (cnt : FVec Ideal ⟨2, ![M, 1]⟩ .f32) (agg hc : FVec Ideal ⟨2, ![M, K]⟩ .f32)
    (Wl Wr : FVec Ideal ⟨2, ![K, H]⟩ .f32) (bl : FVec Ideal ⟨1, ![H]⟩ .f32)
    (Wo : FVec Ideal ⟨2, ![H, N]⟩ .f32) (bo : FVec Ideal ⟨1, ![N]⟩ .f32) (p : Fin M) :
    rowAt (addf (matmul D₂ none
          (truncf .bf16 (addf
            (addf (matmul D₁ none
                (truncf .bf16 (divf (shapeCast ⟨2, ![M, K]⟩ agg hK)
                  (broadcastTo ⟨2, ![M, K]⟩ (maximumf (shapeCast ⟨2, ![M, 1]⟩ cnt h1)
                    (broadcast ⟨2, ![M, 1]⟩ (Scalar.ofBits (F := Ideal) .f32 0x3F800000#32))) hb1)) hbits)
                (truncf .bf16 Wl hbits) (constant (F := Ideal) ⟨2, ![M, H]⟩ .f32 0x00000000#32))
              (broadcastTo ⟨2, ![M, H]⟩ (shapeCast ⟨2, ![1, H]⟩ bl hsH) hbH))
            (matmul D₁ none (truncf .bf16 (shapeCast ⟨2, ![M, K]⟩ hc hK) hbits) (truncf .bf16 Wr hbits)
              (constant (F := Ideal) ⟨2, ![M, H]⟩ .f32 0x00000000#32))) hbits)
          (truncf .bf16 Wo hbits) (constant (F := Ideal) ⟨2, ![M, N]⟩ .f32 0x00000000#32))
        (broadcastTo ⟨2, ![M, N]⟩ (shapeCast ⟨2, ![1, N]⟩ bo hsN) hbN)) p
      = combine (mat Wl) (vecOf bl) (mat Wr) (mat Wo) (vecOf bo) (rowAt agg p) (cnt (ix2 p (0 : Fin 1))) (rowAt hc p) := by
  rw [mxuNarrowBias_rowAt D₂ hlc₂ hrc₂ hln₂ hrn₂ hlb₂ hrb₂, addf_rowAt,
    mxuNarrowBias_rowAt D₁ hlc₁ hrc₁ hln₁ hrn₁ hlb₁ hrb₁, mxuNarrow_rowAt D₁ hlc₁ hrc₁ hln₁ hrn₁ hlb₁ hrb₁,
    mean_rowAt, shapeCast_self]
  rfl

end Kernel

/-! ## The reference's side, on a row -/

section Host
variable {M K H N : Nat}

/-- Row `i` of the array of sums divided by the counts raised to at least one, the rank-1 counts stood up as a
    column and spread along the rows. -/
theorem hostMean_rowAt (agg : FVec Ideal ⟨2, ![M, K]⟩ .f32) (cnt : FVec Ideal ⟨1, ![M]⟩ .f32)
    (h0 : (⟨0, ![]⟩ : Shape).BroadcastsInDim ⟨1, ![M]⟩ ![])
    (hc : (⟨1, ![M]⟩ : Shape).BroadcastsInDim ⟨2, ![M, 1]⟩ ![0])
    (hr : (⟨2, ![M, 1]⟩ : Shape).BroadcastsInDim ⟨2, ![M, K]⟩ ![0, 1]) (i : Fin M) :
    rowAt (Host.divf agg (broadcastInDim ⟨2, ![M, K]⟩ ![0, 1] hr (broadcastInDim ⟨2, ![M, 1]⟩ ![0] hc
        (maximumf cnt (broadcastInDim ⟨1, ![M]⟩ ![] h0 (constant (F := Ideal) ⟨0, ![]⟩ .f32 0x3F800000#32)))))) i
      = meanRow (rowAt agg i) (cnt (ix1 i)) := by
  funext l
  show Ideal.div (agg (ix2 i l)) (broadcastInDim ⟨2, ![M, K]⟩ ![0, 1] hr (broadcastInDim ⟨2, ![M, 1]⟩ ![0] hc
      (maximumf cnt (broadcastInDim ⟨1, ![M]⟩ ![] h0 (constant (F := Ideal) ⟨0, ![]⟩ .f32 0x3F800000#32)))) (ix2 i l)) = _
  rw [broadcastInDim_a1_ab_apply, broadcastInDim_a_a1_apply]
  show Ideal.div (agg (ix2 i l)) (max (cnt (ix1 i))
      (broadcastInDim ⟨1, ![M]⟩ ![] h0 (constant (F := Ideal) ⟨0, ![]⟩ .f32 0x3F800000#32) (ix1 i))) = _
  rw [broadcastInDim_scalar_apply]
  show Ideal.div (agg (ix2 i l)) (max (cnt (ix1 i)) (Ideal.ofBits .f32 0x3F800000#32)) = _
  rw [Ideal.ofBits_one_f32]
  rfl

/-- THE REFERENCE'S ARRAY, ROW `i`: the combine layer as the reference spells it on the whole array is `combine` of
    row `i` of the sums, entry `i` of the counts and row `i` of the hidden rows. -/
theorem host_rowAt (D₁ : DotDims ⟨2, ![M, K]⟩ ⟨2, ![K, H]⟩ ⟨2, ![M, H]⟩)
    (hlc₁ : D₁.lhsContracting = [1]) (hrc₁ : D₁.rhsContracting = [0])
    (hln₁ : D₁.lhsNonContracting = [0]) (hrn₁ : D₁.rhsNonContracting = [1]) (hlb₁ : D₁.lhsBatch = []) (hrb₁ : D₁.rhsBatch = [])
    (D₂ : DotDims ⟨2, ![M, H]⟩ ⟨2, ![H, N]⟩ ⟨2, ![M, N]⟩)
    (hlc₂ : D₂.lhsContracting = [1]) (hrc₂ : D₂.rhsContracting = [0])
    (hln₂ : D₂.lhsNonContracting = [0]) (hrn₂ : D₂.rhsNonContracting = [1]) (hlb₂ : D₂.lhsBatch = []) (hrb₂ : D₂.rhsBatch = [])
    (h0 : (⟨0, ![]⟩ : Shape).BroadcastsInDim ⟨1, ![M]⟩ ![])
    (hcol : (⟨1, ![M]⟩ : Shape).BroadcastsInDim ⟨2, ![M, 1]⟩ ![0])
    (hrow : (⟨2, ![M, 1]⟩ : Shape).BroadcastsInDim ⟨2, ![M, K]⟩ ![0, 1])
    (hH1 : (⟨1, ![H]⟩ : Shape).BroadcastsInDim ⟨2, ![1, H]⟩ ![1])
    (hH2 : (⟨2, ![1, H]⟩ : Shape).BroadcastsInDim ⟨2, ![M, H]⟩ ![0, 1])
    (hN1 : (⟨1, ![N]⟩ : Shape).BroadcastsInDim ⟨2, ![1, N]⟩ ![1])
    (hN2 : (⟨2, ![1, N]⟩ : Shape).BroadcastsInDim ⟨2, ![M, N]⟩ ![0, 1])
    (agg : FVec Ideal ⟨2, ![M, K]⟩ .f32) (cnt : FVec Ideal ⟨1, ![M]⟩ .f32) (hc : FVec Ideal ⟨2, ![M, K]⟩ .f32)
    (Wl : FVec Ideal ⟨2, ![K, H]⟩ .f32) (bl : FVec Ideal ⟨1, ![H]⟩ .f32) (Wr : FVec Ideal ⟨2, ![K, H]⟩ .f32)
    (Wo : FVec Ideal ⟨2, ![H, N]⟩ .f32) (bo : FVec Ideal ⟨1, ![N]⟩ .f32) (i : Fin M) :
    rowAt (addf (Host.dotGeneral D₂ none
          (addf (addf (Host.dotGeneral D₁ none
                (Host.divf agg (broadcastInDim ⟨2, ![M, K]⟩ ![0, 1] hrow (broadcastInDim ⟨2, ![M, 1]⟩ ![0] hcol
                  (maximumf cnt (broadcastInDim ⟨1, ![M]⟩ ![] h0 (constant (F := Ideal) ⟨0, ![]⟩ .f32 0x3F800000#32)))))) Wl)
              (broadcastInDim ⟨2, ![M, H]⟩ ![0, 1] hH2 (broadcastInDim ⟨2, ![1, H]⟩ ![1] hH1 bl)))
            (Host.dotGeneral D₁ none hc Wr)) Wo)
        (broadcastInDim ⟨2, ![M, N]⟩ ![0, 1] hN2 (broadcastInDim ⟨2, ![1, N]⟩ ![1] hN1 bo))) i
      = combine (mat Wl) (vecOf bl) (mat Wr) (mat Wo) (vecOf bo) (rowAt agg i) (cnt (ix1 i)) (rowAt hc i) := by
  rw [hostBias_rowAt, dot_rowAt D₂ hlc₂ hrc₂ hln₂ hrn₂ hlb₂ hrb₂, addf_rowAt, hostBias_rowAt,
    dot_rowAt D₁ hlc₁ hrc₁ hln₁ hrn₁ hlb₁ hrb₁, dot_rowAt D₁ hlc₁ hrc₁ hln₁ hrn₁ hlb₁ hrb₁, hostMean_rowAt]
  rfl

end Host

end Cert.Combine

end
-- ==== Proof.Region2.lean ====
import proofs.«420283_j42666205119271_1_alg».proof.Proof.Gen.KernelIdeal.Frame
import proofs.«420283_j42666205119271_1_alg».proof.Proof.Spec
import proofs.«420283_j42666205119271_1_alg».proof.Proof.LibCombineRow
import Idealize.ShloMosaic.Lib.Pipeline.Value

/-!
# The combine layer's output array

The third pipelined call walks the 100000 content nodes in 20 blocks of 5000 rows. At grid point `t` it reads rows
`5000·t … 5000·t + 4999` of the summed messages, of the one-column array of counts and of the hidden rows, reads the
three weight matrices and two biases whole, and writes rows `5000·t … 5000·t + 4999` of the result. Row `p` of what
it writes is the combine layer's row function of row `5000·t + p` of its operands, and so is row `5000·t + p` of the
reference's result; the 20 blocks cover the array. So the array ends holding the reference's result.
-/

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx Cert.Mlp Cert.Combine

variable (V : (c : Dev nD) → (b : Ref sig .tc) → Buf (Elt Ideal) ((c : Thread nD τ).loc b))

/-! ## The index maps over the grid -/

theorem combine_zero2 : (![0, 0] : Fin 2 → Nat) = fun _ => 0 := funext fun a => by fin_cases a <;> rfl

theorem combine_zero1 : (![0] : Fin 1 → Nat) = fun _ => 0 := funext fun a => by fin_cases a <;> rfl

/-- The printed index maps, decided over the 20 points: the three row-blocked operands and the result sit at block
    `(t, 0)`, the weights and biases at block zero. -/
theorem combine_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- A point's number is below 20. -/
theorem combine_point_lt (t : Fin cfg2.N) : t.val < 20 := Nat.lt_of_lt_of_eq t.isLt N_2

/-- Row `p` of block `t` is a row of the array. -/
theorem combine_row_lt (t : Fin cfg2.N) (p : Fin 5000) : t.val * 5000 + p.val < 100000 := by
  have := combine_point_lt t; have := p.isLt; omega

/-! ## The input blocks as rows of their arrays -/

/-- Row `p` of the block of summed messages at point `t` is row `5000·t + p` of the array. -/
theorem combine_aggBlock_rowAt (c : Dev nD) (t : Fin cfg2.N) (p : Fin 5000) :
    rowAt (iblk2 V c 0 t : FVec Ideal ⟨2, ![5000, 128]⟩ .f32) p
      = rowAt (V c main_v9 : FVec Ideal ⟨2, ![100000, 128]⟩ .f32) ⟨t.val * 5000 + p.val, combine_row_lt t p⟩ := by
  funext q
  show (iblk2 V c 0 t) (ix2 p q) = V c main_v9 (ix2 ⟨t.val * 5000 + p.val, combine_row_lt t p⟩ q)
  unfold iblk2
  rw [View.read_apply]
  show V c main_v9 (((cfg2.win 0).blk t).view.emb (ix2 p q)) = V c main_v9 (ix2 ⟨t.val * 5000 + p.val, combine_row_lt t p⟩ q)
  congr 1
  funext a
  apply Fin.ext
  obtain ⟨e0, e1, -⟩ := combine_index_facts t
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

/-- Row `p` of the block of hidden rows at point `t` is row `5000·t + p` of the array. -/
theorem combine_hcBlock_rowAt (c : Dev nD) (t : Fin cfg2.N) (p : Fin 5000) :
    rowAt (iblk2 V c 2 t : FVec Ideal ⟨2, ![5000, 128]⟩ .f32) p
      = rowAt (V c main_v0 : FVec Ideal ⟨2, ![100000, 128]⟩ .f32) ⟨t.val * 5000 + p.val, combine_row_lt t p⟩ := by
  funext q
  show (iblk2 V c 2 t) (ix2 p q) = V c main_v0 (ix2 ⟨t.val * 5000 + p.val, combine_row_lt t p⟩ q)
  unfold iblk2
  rw [View.read_apply]
  show V c main_v0 (((cfg2.win 2).blk t).view.emb (ix2 p q)) = V c main_v0 (ix2 ⟨t.val * 5000 + p.val, combine_row_lt t p⟩ q)
  congr 1
  funext a
  apply Fin.ext
  obtain ⟨-, -, -, -, e0, e1, -⟩ := combine_index_facts t
  match a with
  | ⟨0, _⟩ => show win2_2.index t (0 : Fin 2) * 5000 + 1 * p.val = t.val * 5000 + p.val; rw [e0]; omega
  | ⟨1, _⟩ => show win2_2.index t (1 : Fin 2) * 128 + 1 * q.val = q.val; rw [e1]; omega

/-- Entry `p` of the one-column block of counts at point `t` is entry `5000·t + p` of the column array. -/
theorem combine_cntBlock_apply (c : Dev nD) (t : Fin cfg2.N) (p : Fin 5000) :
    (iblk2 V c 1 t : FVec Ideal ⟨2, ![5000, 1]⟩ .f32) (ix2 p (0 : Fin 1))
      = (V c main_v14 : FVec Ideal ⟨2, ![100000, 1]⟩ .f32) (ix2 ⟨t.val * 5000 + p.val, combine_row_lt t p⟩ (0 : Fin 1)) := by
  unfold iblk2
  rw [View.read_apply]
  show V c main_v14 (((cfg2.win 1).blk t).view.emb (ix2 p (0 : Fin 1)))
    = V c main_v14 (ix2 ⟨t.val * 5000 + p.val, combine_row_lt t p⟩ (0 : Fin 1))
  congr 1
  funext a
  apply Fin.ext
  obtain ⟨-, -, e0, e1, -⟩ := combine_index_facts t
  match a with
  | ⟨0, _⟩ => show win2_1.index t (0 : Fin 2) * 5000 + 1 * p.val = t.val * 5000 + p.val; rw [e0]; omega
  | ⟨1, _⟩ => show win2_1.index t (1 : Fin 2) * 1 + 1 * 0 = 0; rw [e1]

/-- The block of the first weight matrix is the whole matrix, at every point. -/
theorem combine_WlBlock (c : Dev nD) (t : Fin cfg2.N) :
    (iblk2 V c 3 t : FVec Ideal ⟨2, ![128, 128]⟩ .f32) = V c main_arg7 := by
  funext j
  unfold iblk2
  rw [View.read_apply]
  show V c main_arg7 (((cfg2.win 3).blk t).view.emb j) = V c main_arg7 j
  congr 1
  funext a
  apply Fin.ext
  obtain ⟨-, -, -, -, -, -, e0, e1, -⟩ := combine_index_facts t
  match a with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega

/-- The block of the first bias is the whole bias. -/
theorem combine_blBlock (c : Dev nD) (t : Fin cfg2.N) :
    (iblk2 V c 4 t : FVec Ideal ⟨1, ![128]⟩ .f32) = V c main_arg8 := by
  funext j
  unfold iblk2
  rw [View.read_apply]
  show V c main_arg8 (((cfg2.win 4).blk t).view.emb j) = V c main_arg8 j
  congr 1
  funext a
  apply Fin.ext
  obtain ⟨-, -, -, -, -, -, -, -, e0, -⟩ := combine_index_facts t
  match a with
  | ⟨0, _⟩ => show win2_4.index t (0 : Fin 1) * 128 + 1 * (j 0).val = (j 0).val; rw [e0]; omega

/-- The block of the second weight matrix is the whole matrix. -/
theorem combine_WrBlock (c : Dev nD) (t : Fin cfg2.N) :
    (iblk2 V c 5 t : FVec Ideal ⟨2, ![128, 128]⟩ .f32) = V c main_arg9 := by
  funext j
  unfold iblk2
  rw [View.read_apply]
  show V c main_arg9 (((cfg2.win 5).blk t).view.emb j) = V c main_arg9 j
  congr 1
  funext a
  apply Fin.ext
  obtain ⟨-, -, -, -, -, -, -, -, -, e0, e1, -⟩ := combine_index_facts t
  match a with
  | ⟨0, _⟩ => show win2_5.index t (0 : Fin 2) * 128 + 1 * (j 0).val = (j 0).val; rw [e0]; omega
  | ⟨1, _⟩ => show win2_5.index t (1 : Fin 2) * 128 + 1 * (j 1).val = (j 1).val; rw [e1]; omega

/-- The block of the output weight matrix is the whole matrix. -/
theorem combine_WoBlock (c : Dev nD) (t : Fin cfg2.N) :
    (iblk2 V c 6 t : FVec Ideal ⟨2, ![128, 64]⟩ .f32) = V c main_arg10 := by
  funext j
  unfold iblk2
  rw [View.read_apply]
  show V c main_arg10 (((cfg2.win 6).blk t).view.emb j) = V c main_arg10 j
  congr 1
  funext a
  apply Fin.ext
  obtain ⟨-, -, -, -, -, -, -, -, -, -, -, e0, e1, -⟩ := combine_index_facts t
  match a with
  | ⟨0, _⟩ => show win2_6.index t (0 : Fin 2) * 128 + 1 * (j 0).val = (j 0).val; rw [e0]; omega
  | ⟨1, _⟩ => show win2_6.index t (1 : Fin 2) * 64 + 1 * (j 1).val = (j 1).val; rw [e1]; omega

/-- The block of the output bias is the whole bias. -/
theorem combine_boBlock (c : Dev nD) (t : Fin cfg2.N) :
    (iblk2 V c 7 t : FVec Ideal ⟨1, ![64]⟩ .f32) = V c main_arg11 := by
  funext j
  unfold iblk2
  rw [View.read_apply]
  show V c main_arg11 (((cfg2.win 7).blk t).view.emb j) = V c main_arg11 j
  congr 1
  funext a
  apply Fin.ext
  obtain ⟨-, -, -, -, -, -, -, -, -, -, -, -, -, e0, -⟩ := combine_index_facts t
  match a with
  | ⟨0, _⟩ => show win2_7.index t (0 : Fin 1) * 64 + 1 * (j 0).val = (j 0).val; rw [e0]; omega

/-- Where element `(p, n)` of the result's block at point `t` sits in the result array: `(5000·t + p, n)`. -/
theorem combine_outBlock_emb (t : Fin cfg2.N) (p : Fin 5000) (n : Fin 64) :
    ((cfg2.win 8).blk t).view.emb (ix2 p n)
      = (ix2 ⟨t.val * 5000 + p.val, combine_row_lt t p⟩ n : (⟨2, ![100000, 64]⟩ : Shape).Idx) := by
  funext a
  apply Fin.ext
  obtain ⟨-, -, -, -, -, -, -, -, -, -, -, -, -, -, e0, e1⟩ := combine_index_facts t
  match a with
  | ⟨0, _⟩ => show win2_8.index t (0 : Fin 2) * 5000 + 1 * p.val = t.val * 5000 + p.val; rw [e0]; omega
  | ⟨1, _⟩ => show win2_8.index t (1 : Fin 2) * 64 + 1 * n.val = n.val; rw [e1]; omega

/-! ## The two programs' rows -/

/-- Row `p` of the kernel's payload on a block is the combine layer's row function of the blocks' row `p`. -/
theorem combine_kernel_row (x1 : Vec Ideal S5000x1 .f32) (x0 x2 : Vec Ideal S5000x128 .f32)
    (x3 x5 : Vec Ideal S128x128 .f32) (x4 : Vec Ideal S128 .f32) (x6 : Vec Ideal S128x64 .f32) (x7 : Vec Ideal S64 .f32)
    (p : Fin 5000) :
    rowAt (k2_pay1 (F := Ideal) x1 x0 x2 x3 x5 x4 x6 x7 : FVec Ideal ⟨2, ![5000, 64]⟩ .f32) p
      = combine (mat x3) (vecOf x4) (mat x5) (mat x6) (vecOf x7) (rowAt x0 p) (x1 (ix2 p (0 : Fin 1))) (rowAt x2 p) :=
  Cert.Combine.kernel_rowAt dot_S5000x128_S128x128_S5000x128_1_0_0_1_n_n rfl rfl rfl rfl rfl rfl
    dot_S5000x128_S128x64_S5000x64_1_0_0_1_n_n rfl rfl rfl rfl rfl rfl _ _ _ _ _ _ _ _
    x1 x0 x2 x3 x5 x4 x6 x7 p

/-- Row `i` of the reference's combine layer is the same row function of the arrays' row `i`. -/
theorem combine_host_row (agg : FVec Ideal ⟨2, ![100000, 128]⟩ .f32) (cnt : FVec Ideal ⟨1, ![100000]⟩ .f32)
    (hc : FVec Ideal ⟨2, ![100000, 128]⟩ .f32) (Wl : FVec Ideal ⟨2, ![128, 128]⟩ .f32) (bl : FVec Ideal ⟨1, ![128]⟩ .f32)
    (Wr : FVec Ideal ⟨2, ![128, 128]⟩ .f32) (Wo : FVec Ideal ⟨2, ![128, 64]⟩ .f32) (bo : FVec Ideal ⟨1, ![64]⟩ .f32)
    (i : Fin 100000) :
    rowAt (Cert.Sage.tailOf (F := Ideal) agg cnt hc Wl bl Wr Wo bo : FVec Ideal ⟨2, ![100000, 64]⟩ .f32) i
      = combine (mat Wl) (vecOf bl) (mat Wr) (mat Wo) (vecOf bo) (rowAt agg i) (cnt (ix1 i)) (rowAt hc i) :=
  Cert.Combine.host_rowAt Cert.ReferenceIdeal.dot_S100000x128_S128x128_S100000x128_1_0_0_1_n_n rfl rfl rfl rfl rfl rfl
    Cert.ReferenceIdeal.dot_S100000x128_S128x64_S100000x64_1_0_0_1_n_n rfl rfl rfl rfl rfl rfl _ _ _ _ _ _ _
    agg cnt hc Wl bl Wr Wo bo i

/-! ## What a point writes back -/

/-- WHAT POINT `t` WRITES BACK is block `t` of the reference's result. -/
theorem combine_flushed_eq (c : Dev nD) (cnt : FVec Ideal Cert.ReferenceIdeal.S100000 .f32)
    (hcnt : V c main_v14 = shapeCast S100000x1 cnt Cert.KernelIdeal.Facts₀.shapeCasts_S100000_S100000x1)
    (t : Fin cfg2.N) :
    (dat2 (F := Ideal) V c).flushed 8 t = ((cfg2.win 8).blk t).view.read (Elt Ideal)
      (Cert.Sage.tailOf (F := Ideal) (V c main_v9) cnt (V c main_v0) (V c main_arg7) (V c main_arg8) (V c main_arg9)
        (V c main_arg10) (V c main_arg11)) := by
  show (cfg2.win 8).cut (grid2.coords t) ((dat2 (F := Ideal) V c).after 8 t) = _
  rw [after2_8]
  unfold out2_8
  rw [View.canon_unit_zero combine_zero2]
  simp only [View.ld_unit_zero (S := S5000x1) combine_zero2, View.ld_unit_zero (S := S5000x128) combine_zero2,
    View.ld_unit_zero (S := S128x128) combine_zero2, View.ld_unit_zero (S := S128) combine_zero1,
    View.ld_unit_zero (S := S128x64) combine_zero2, View.ld_unit_zero (S := S64) combine_zero1]
  funext j
  obtain ⟨p, n, rfl⟩ : ∃ (p : Fin 5000) (n : Fin 64), j = ix2 p n := ⟨j 0, j 1, eq_ix2 j⟩
  rw [View.read_apply]
  show rowAt _ p n = Cert.Sage.tailOf (F := Ideal) _ _ _ _ _ _ _ _ (((cfg2.win 8).blk t).view.emb (ix2 p n))
  rw [combine_outBlock_emb t p n]
  refine (congrFun (combine_kernel_row (iblk2 V c 1 t) (iblk2 V c 0 t) (iblk2 V c 2 t) (iblk2 V c 3 t) (iblk2 V c 5 t)
    (iblk2 V c 4 t) (iblk2 V c 6 t) (iblk2 V c 7 t) p) n).trans ?_
  refine Eq.trans ?_ (congrFun (combine_host_row (V c main_v9) cnt (V c main_v0) (V c main_arg7) (V c main_arg8)
    (V c main_arg9) (V c main_arg10) (V c main_arg11) ⟨t.val * 5000 + p.val, combine_row_lt t p⟩) n).symm
  rw [combine_WlBlock V c t, combine_blBlock V c t, combine_WrBlock V c t, combine_WoBlock V c t, combine_boBlock V c t,
    combine_aggBlock_rowAt V c t p, combine_hcBlock_rowAt V c t p, combine_cntBlock_apply V c t p, hcnt,
    shapeCast_a_a1_apply]

/-! ## The blocks cover the array -/

/-- An index of the result array is in point `t`'s block iff each coordinate is in the block's range on its axis. -/
theorem combine_mem_blk (t : Fin cfg2.N) (i : (⟨2, ![100000, 64]⟩ : Shape).Idx) :
    i ∈ ((cfg2.win 8).blk t).view.set ↔ ∀ a : Fin 2, win2_8.index t a * S5000x64.size a ≤ (i a).val
      ∧ (i a).val < win2_8.index t a * S5000x64.size a + S5000x64.size a := by
  show i ∈ ((View.whole main_v15).slice (win2_8.rect t)).set ↔ _
  rw [View.set_slice_whole, Rect.mem_set_unit]
  exact Iff.rfl

/-- Row `r` of the result lies in the block of point `r / 5000`. -/
theorem combine_cover (i : (⟨2, ![100000, 64]⟩ : Shape).Idx) :
    ∃ t : Fin cfg2.N, (cfg2.win 8).flush t = true ∧ i ∈ ((cfg2.win 8).blk t).view.set := by
  have h0 : (i 0).val < 100000 := (i 0).isLt
  have h1 : (i 1).val < 64 := (i 1).isLt
  obtain ⟨t, ht⟩ : ∃ t : Fin cfg2.N, t.val = (i 0).val / 5000 :=
    ⟨⟨(i 0).val / 5000, Nat.lt_of_lt_of_eq (show (i 0).val / 5000 < 20 by omega) N_2.symm⟩, rfl⟩
  refine ⟨t, flush2_8 t, ?_⟩
  rw [combine_mem_blk]
  obtain ⟨-, -, -, -, -, -, -, -, -, -, -, -, -, -, e0, e1⟩ := combine_index_facts t
  intro a
  match a with
  | ⟨0, _⟩ =>
    show win2_8.index t (0 : Fin 2) * 5000 ≤ (i 0).val ∧ (i 0).val < win2_8.index t (0 : Fin 2) * 5000 + 5000
    rw [e0, ht]; omega
  | ⟨1, _⟩ =>
    show win2_8.index t (1 : Fin 2) * 64 ≤ (i 1).val ∧ (i 1).val < win2_8.index t (1 : Fin 2) * 64 + 64
    rw [e1]; omega

/-! ## The array after the run -/

/-- After the 20 points the result array holds the reference's combine layer of the arrays the region read. -/
theorem region2_value (c : Dev nD) (cnt : FVec Ideal Cert.ReferenceIdeal.S100000 .f32)
    (hcnt : V c main_v14 = shapeCast S100000x1 cnt Cert.KernelIdeal.Facts₀.shapeCasts_S100000_S100000x1) :
    (dat2 (F := Ideal) V c).arrAt 8 cfg2.N
      = Cert.Sage.tailOf (F := Ideal) (V c main_v9) cnt (V c main_v0) (V c main_arg7) (V c main_arg8) (V c main_arg9) (V c main_arg10) (V c main_arg11) :=
  (dat2 (F := Ideal) V c).arrAt_eq_of_cover 8 _ (fun t _ => combine_flushed_eq V c cnt hcnt t) combine_cover

end Cert.KernelIdeal.Hand

end
-- ==== Proof.TakeInRange.lean ====
import proofs.«420283_j42666205119271_1_alg».proof.Proof.Take
import proofs.«420283_j42666205119271_1_alg».proof.Proof.Spec
import proofs.«420283_j42666205119271_1_alg».proof.Proof.Gen.Pre_finite_inputs
import Idealize.ShloMosaic.Lib.Affine

/-!
# The guarded row lookup, where every source node is in range

The guarded lookup wraps a negative node number by adding the table's height, reads the table's row there, and puts a
filler row where the wrapped number is outside `0 … 99999`. When every node number `s k` already satisfies
`0 ≤ s k < 100000` as a signed word, the wrap leaves it as it is, both range compares hold at every edge, so the
conjunction along the one-entry column is 1 at every edge and the selection keeps the row that was read. That row is
the one the plain lookup reads: the two lookups take the same table, the same index column and the same dimension
numbers.
-/

noncomputable section

namespace Cert.KernelIdeal.Hand

open Idealize.ShloMosaic Cert.KernelIdeal Cert.KernelIdeal.Facts₀ Cert.KernelIdeal.Facts

namespace TakeInRange

/-- A left fold by `and` from 1 over one-bit words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_one f hf l

/-- A reduction by `and` from 1 of an array of one-bit words that are all 1 is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

/-- Counting from the end leaves a non-negative word as it is. -/
theorem wrap_of_nonneg (w : BitVec 32) (h0 : 0 ≤ w.toInt) :
    Scalar.select (IntOp.cmpi .slt w 0#32) (IntOp.addi w 100000#32) w = w := by
  have z0 : (0#32 : BitVec 32).toInt = 0 := by decide
  unfold Scalar.select
  split
  · rename_i hc
    have hlt : w.toInt < (0#32 : BitVec 32).toInt := IntOp.cmpi_slt.1 hc
    rw [z0] at hlt
    omega
  · rfl

/-- With every node number non-negative the wrapped numbers are the numbers themselves. -/
theorem wrap_eq (s : IVec S1600000 32) (hs : ∀ k : S1600000.Idx, 0 ≤ (s k).toInt ∧ (s k).toInt < 100000) :
    select (cmpi .slt s (broadcastInDim S1600000 ![] bcast_S_S1600000 (constantI S_ 32 0#32)))
      (addi s (broadcastInDim S1600000 ![] bcast_S_S1600000 (constantI S_ 32 100000#32))) s = s := by
  funext k
  exact wrap_of_nonneg (s k) (hs k).1

/-- Every entry of the index column passes both range compares. -/
theorem entry_one (s : IVec S1600000 32) (hs : ∀ k : S1600000.Idx, 0 ≤ (s k).toInt ∧ (s k).toInt < 100000)
    (i : S1600000x1.Idx) :
    andi (cmpi .sge (idxCol s) (broadcastInDim S1600000x1 ![] bcast_S_S1600000x1 (constantI S_ 32 0#32)))
      (cmpi .sle (idxCol s) (broadcastInDim S1600000x1 ![0, 1] bcast_S1x1_S1600000x1_0_1
        (broadcastInDim S1x1 ![1] bcast_S1_S1x1_1 (constantI S1 32 99999#32)))) i = 1#1 := by
  have z0 : (0#32 : BitVec 32).toInt = 0 := by decide
  have z9 : (99999#32 : BitVec 32).toInt = 99999 := by decide
  -- the column's entry is one of the node numbers
  obtain ⟨k, hk⟩ : ∃ k, idxCol s i = s k := by
    unfold idxCol
    rw [wrap_eq s hs]
    exact ⟨_, rfl⟩
  have hA : IntOp.cmpi .sge (idxCol s i) 0#32 = 1#1 := by
    rw [hk]
    refine IntOp.cmpi_sge.2 ?_
    rw [z0]
    exact (hs k).1
  have hB : IntOp.cmpi .sle (idxCol s i) 99999#32 = 1#1 := by
    rw [hk]
    refine IntOp.cmpi_sle.2 ?_
    rw [z9]
    have := (hs k).2
    omega
  exact IntOp.andi_eq_one.2 ⟨hA, hB⟩

/-- The guard holds at every edge. -/
theorem inRange_eq_one (s : IVec S1600000 32) (hs : ∀ k : S1600000.Idx, 0 ≤ (s k).toInt ∧ (s k).toInt < 100000)
    (k : S1600000.Idx) : inRange s k = 1#1 :=
  reduce_andi_one _ _ _ _ (entry_one s hs) (fun _ => rfl) k

end TakeInRange

theorem takeOf_eq_msgOf (hu : FVec Ideal Cert.KernelIdeal.S100000x128 .f32) (s : IVec Cert.KernelIdeal.S1600000 32)
    (hs : ∀ k : Cert.KernelIdeal.S1600000.Idx, 0 ≤ (s k).toInt ∧ (s k).toInt < 100000) :
    takeOf (F := Ideal) hu s = Cert.Sage.msgOf (F := Ideal) hu s := by
  funext j
  -- the guard, laid along the row, is 1 at `j`
  have hsel : broadcastInDim S1600000x128 ![0] bcast_S1600000_S1600000x128_0 (inRange s) j = 1#1 :=
    TakeInRange.inRange_eq_one s hs _
  -- so the selection keeps the row that was read
  have hrow : takeOf (F := Ideal) hu s j
      = Host.gather gather_S100000x128_S1600000x1_S1600000x128_1_0_n_n_0_1_1128 hu (idxCol s) j := by
    unfold takeOf select Scalar.select
    exact if_pos hsel
  -- and the plain lookup reads the same row
  exact hrow.trans rfl

end Cert.KernelIdeal.Hand

end
-- ==== Proof.SrcRange.lean ====
import proofs.«420283_j42666205119271_1_alg».proof.Proof.Take
import proofs.«420283_j42666205119271_1_alg».proof.Proof.Spec
import proofs.«420283_j42666205119271_1_alg».proof.Proof.Gen.Pre_finite_inputs
import Idealize.ShloMosaic.Lib.ReduceAll
import Idealize.ShloMosaic.Lib.ValueIdx

/-!
# The source nodes' range, out of the precondition

The precondition is a conjunction of one-bit words. Its last conjunct says, of row 0 of the edge list, that every
entry `s` satisfies `0 ≤ s` and `s < 100000` as signed 32-bit words: the conjunction over all edges of the two
compares. Read back at an edge, it bounds the source node number of that edge.
-/

noncomputable section

namespace Cert.KernelIdeal.Hand

open Idealize.ShloMosaic

open Cert.Pre_finite_inputs in
theorem src_in_range (a0 : FVec Ideal S100000x256 .f32) (a1 : FVec Ideal S100000x128 .f32) (e : IVec S2x1600000 32)
    (a3 : FVec Ideal S256x128 .f32) (a4 : FVec Ideal S128 .f32) (a5 : FVec Ideal S128x128 .f32) (a6 : FVec Ideal S128 .f32)
    (a7 : FVec Ideal S128x128 .f32) (a8 : FVec Ideal S128 .f32) (a9 : FVec Ideal S128x128 .f32) (a10 : FVec Ideal S128x64 .f32)
    (a11 : FVec Ideal S64 .f32)
    (h : Cert.Pre_finite_inputs.fn (F := Ideal) a0 a1 e a3 a4 a5 a6 a7 a8 a9 a10 a11 = fun _ => 1#1) :
    ∀ k : Cert.ReferenceIdeal.S1600000.Idx, 0 ≤ (Cert.Sage.srcOf e k).toInt ∧ (Cert.Sage.srcOf e k).toInt < 100000 := by
  intro k
  -- a rank-zero shape has one index
  haveI : Subsingleton Cert.Pre_finite_inputs.S_.Idx := ⟨fun a b => funext fun d => d.elim0⟩
  -- the conjunction, at the one index of its rank-zero result
  have h0 := congrFun h ValueIdx.ix0
  dsimp only [Cert.Pre_finite_inputs.fn, Cert.Pre_finite_inputs.fn_part1, Cert.Pre_finite_inputs.fn_part2,
    Cert.Pre_finite_inputs.fn_part3] at h0
  -- its last conjunct: the conjunction over all edges of the two compares
  have hall := (IntOp.andi_eq_one.1 h0).2
  -- at edge `k`
  have hk := Host.reduce_andi_all _ _ _ _ _ hall k
  obtain ⟨hge, hlt⟩ := IntOp.andi_eq_one.1 hk
  -- the two signed compares, read on the words' integer values
  have hge' : (0#32 : BitVec 32).toInt ≤ (Cert.Sage.srcOf e k).toInt := IntOp.cmpi_sge.1 hge
  have hlt' : (Cert.Sage.srcOf e k).toInt < (100000#32 : BitVec 32).toInt := IntOp.cmpi_slt.1 hlt
  have z0 : (0#32 : BitVec 32).toInt = 0 := by decide
  have z1 : (100000#32 : BitVec 32).toInt = 100000 := by decide
  rw [z0] at hge'
  rw [z1] at hlt'
  exact ⟨hge', hlt'⟩

end Cert.KernelIdeal.Hand

end
-- ==== Proof.Value.lean ====
import proofs.«420283_j42666205119271_1_alg».proof.Proof.HostChain
import proofs.«420283_j42666205119271_1_alg».proof.Proof.Region0
import proofs.«420283_j42666205119271_1_alg».proof.Proof.Region1
import proofs.«420283_j42666205119271_1_alg».proof.Proof.Region2
import proofs.«420283_j42666205119271_1_alg».proof.Proof.TakeInRange
import proofs.«420283_j42666205119271_1_alg».proof.Proof.SrcRange
import proofs.«420283_j42666205119271_1_alg».proof.Proof.Gen.Pre_finite_inputs
import proofs.«420283_j42666205119271_1_alg».proof.Defs
import Idealize.ShloMosaic.Lib.Pipeline.Value

/-!
# The kernel's result array as the network of the launched arrays

The run passes six boundaries: the two dense layers, three stretches of host operations, the combine layer. Read back
from the last one: the combine layer's output is the reference's tail of the arrays it found; those are the sum of the
looked-up user rows, the edge counts as a column, the content rows, and five launched arrays; the user and content rows
are the two dense layers of launched arrays; and under the precondition every source node is in range, so the guarded
lookup is the plain one.
-/

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- What the combine layer finds of an input array nobody wrote is what was launched. -/
theorem V5_of_W6 (c : Dev nD) (w : Fin cfg2.W) (hw : (cfg2.win w).isOut = false) :
    V5 m ρ c (Pipeline.arrRef spec2 w) = W6 m ρ c (Proc.devRef .tc (Pipeline.arrRef spec2 w)) :=
  ((W6_arr m ρ c w).trans (((dat2 (V5 m ρ) c).arrAt_in w hw _).trans (A_eq2 (V5 m ρ) c w))).symm

/-- The edge list reaches the host stretch as launched: neither dense layer writes it. -/
theorem W2_edges (c : Dev nD) : W2 m ρ c (Proc.devRef .tc main_arg2) = m ((c.tc : Thread nD τ).loc main_arg2) :=
  (W2_of_ne m ρ c main_arg2 (by decide)).trans (W1_of_ne m ρ c main_arg2 (by decide))

/-- The user rows the lookup reads: the second dense layer's output, the user layer of the launched arrays. -/
theorem hu_value (c : Dev nD) :
    W3 m ρ c (Proc.devRef .tc main_v1)
      = Cert.Sage.denseU (F := Ideal) (m ((c.tc : Thread nD τ).loc main_arg1)) (m ((c.tc : Thread nD τ).loc main_arg5)) (m ((c.tc : Thread nD τ).loc main_arg6)) := by
  rw [W3_hu, (W2_arr m ρ c 3 : W2 m ρ c (Proc.devRef .tc main_v1) = _), region1_value (V1 m ρ) c]
  have e1 : V1 m ρ c main_arg1 = m ((c.tc : Thread nD τ).loc main_arg1) := W1_of_ne m ρ c main_arg1 (by decide)
  have e5 : V1 m ρ c main_arg5 = m ((c.tc : Thread nD τ).loc main_arg5) := W1_of_ne m ρ c main_arg5 (by decide)
  have e6 : V1 m ρ c main_arg6 = m ((c.tc : Thread nD τ).loc main_arg6) := W1_of_ne m ρ c main_arg6 (by decide)
  rw [e1, e5, e6]

/-- The content rows the combine layer reads: the first dense layer's output, carried through the second layer and the host
    stretch. -/
theorem hc_value (c : Dev nD) :
    V5 m ρ c main_v0
      = Cert.Sage.denseC (F := Ideal) (m ((c.tc : Thread nD τ).loc main_arg0)) (m ((c.tc : Thread nD τ).loc main_arg3)) (m ((c.tc : Thread nD τ).loc main_arg4)) := by
  show W5 m ρ c (Proc.devRef .tc main_v0) = _
  rw [W5_hc, W4_hc, W3_hc, W2_of_ne m ρ c main_v0 (by decide),
    (W1_arr m ρ c 3 : W1 m ρ c (Proc.devRef .tc main_v0) = _), region0_value (V0 m ρ) c]

/-- THE KERNEL'S RESULT: under the precondition the result array ends holding the network of the launched arrays. -/
theorem kernel_value (hpre : Cert.Pre_KernelIdeal m) (c : Dev nD) :
    W6 m ρ c (Proc.devRef .tc main_v15)
      = Cert.Sage.network (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) := by
  -- the source nodes are in range, so the guarded lookup is the plain one
  have hs := src_in_range _ _ _ _ _ _ _ _ _ _ _ _ (hpre c)
  have hmsg : W4 m ρ c (Proc.devRef .tc main_v6)
      = Cert.Sage.msgOf (F := Ideal) (Cert.Sage.denseU (m ((c.tc : Thread nD τ).loc main_arg1)) (m ((c.tc : Thread nD τ).loc main_arg5)) (m ((c.tc : Thread nD τ).loc main_arg6)))
          (Cert.Sage.srcOf (m ((c.tc : Thread nD τ).loc main_arg2))) := by
    rw [W4_msg, hu_value, W3_src, W2_edges]
    exact takeOf_eq_msgOf _ _ hs
  have hdst : W4 m ρ c (Proc.devRef .tc main_v5) = Cert.Sage.dstOf (m ((c.tc : Thread nD τ).loc main_arg2)) := by
    rw [W4_dst, W3_dst, W2_edges]
  have hcnt : V5 m ρ c main_v14
      = shapeCast S100000x1 (Cert.Sage.cntOf (F := Ideal) (Cert.Sage.dstOf (m ((c.tc : Thread nD τ).loc main_arg2)))) Cert.KernelIdeal.Facts₀.shapeCasts_S100000_S100000x1 := by
    show W5 m ρ c (Proc.devRef .tc main_v14) = _
    rw [W5_cnt, hdst]
  have hagg : V5 m ρ c main_v9 = Cert.Sage.aggOf (F := Ideal) (Cert.Sage.msgOf (Cert.Sage.denseU (m ((c.tc : Thread nD τ).loc main_arg1)) (m ((c.tc : Thread nD τ).loc main_arg5)) (m ((c.tc : Thread nD τ).loc main_arg6)))
          (Cert.Sage.srcOf (m ((c.tc : Thread nD τ).loc main_arg2)))) (Cert.Sage.dstOf (m ((c.tc : Thread nD τ).loc main_arg2))) := by
    show W5 m ρ c (Proc.devRef .tc main_v9) = _
    rw [W5_agg, hmsg, hdst]
  have e7 : V5 m ρ c main_arg7 = m ((c.tc : Thread nD τ).loc main_arg7) := (V5_of_W6 m ρ c 3 rfl).trans (W6_main_arg7 m ρ c)
  have e8 : V5 m ρ c main_arg8 = m ((c.tc : Thread nD τ).loc main_arg8) := (V5_of_W6 m ρ c 4 rfl).trans (W6_main_arg8 m ρ c)
  have e9 : V5 m ρ c main_arg9 = m ((c.tc : Thread nD τ).loc main_arg9) := (V5_of_W6 m ρ c 5 rfl).trans (W6_main_arg9 m ρ c)
  have e10 : V5 m ρ c main_arg10 = m ((c.tc : Thread nD τ).loc main_arg10) := (V5_of_W6 m ρ c 6 rfl).trans (W6_main_arg10 m ρ c)
  have e11 : V5 m ρ c main_arg11 = m ((c.tc : Thread nD τ).loc main_arg11) := (V5_of_W6 m ρ c 7 rfl).trans (W6_main_arg11 m ρ c)
  rw [(W6_arr m ρ c 8 : W6 m ρ c (Proc.devRef .tc main_v15) = _), region2_value (V5 m ρ) c _ hcnt, hagg, hc_value, e7, e8, e9, e10, e11]
  rfl

end Cert.KernelIdeal.Hand
end
-- ==== Proof.lean ====
/-
  Two programs compute a two-layer message-passing network on a bipartite graph of 100000 content nodes, 100000 user
  nodes and 1600000 edges. Each node type goes through its own dense layer with ReLU (`hc = max (x_content · Wc + bc) 0`,
  `hu = max (x_user · Wu + bu) 0`); every edge carries the user row at its source node to its destination content
  node, where the rows are summed (`agg`) and counted (`cnt`); the result row of content node `i` is
  `((agg i / max (cnt i) 1) · Wl + bl + hc i · Wr) · Wo + bo`.

  The kernel computes the two dense layers and the last combination in three gridded calls over row blocks of 5000,
  narrowing the matrix products' operands to bf16, which over the extended reals is the identity, so each call's output
  array is the reference's own function of the arrays the call reads (the matrix unit's product into a zero
  accumulator and the host's product are the same sum over the contracted axis; the blocks of the 20 grid points
  tile the output). Between the calls both programs run the same host operations, but for one: the kernel's row
  lookup puts a filler row where a source node number, counted from the end when negative, is outside
  `0 … 99999`, while the reference's lookup clamps it. The precondition bounds every source node number by
  `0 ≤ s < 100000`; then the guard never fires and the two lookups read the same rows. No law of the extended reals
  beyond the sums' own definition is used, so the finiteness of the float inputs is never opened.

  The frames of the two kernel programs are the generated ones; the reference's is its generated run with the result
  dropped; no operation of the kernel was rewritten by the ideal pass, so there is nothing to preserve.
-/
import proofs.«420283_j42666205119271_1_alg».proof.Defs
import proofs.«420283_j42666205119271_1_alg».proof.Proof.Gen.Kernel
import proofs.«420283_j42666205119271_1_alg».proof.Proof.Gen.Kernel.Frame
import proofs.«420283_j42666205119271_1_alg».proof.Proof.Gen.KernelIdeal
import proofs.«420283_j42666205119271_1_alg».proof.Proof.Gen.KernelIdeal.Frame
import proofs.«420283_j42666205119271_1_alg».proof.Proof.Gen.ReferenceIdeal
import proofs.«420283_j42666205119271_1_alg».proof.Proof.Gen.ReferenceIdeal.Run
import proofs.«420283_j42666205119271_1_alg».proof.Proof.Gen.Pre_finite_inputs
import proofs.«420283_j42666205119271_1_alg».proof.Proof.KernelRun
import proofs.«420283_j42666205119271_1_alg».proof.Proof.Value
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The reference's run ends with its result at the network of its launched arrays: the run's composed term is the
    stages of `Cert.Sage` put together. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v42)
          = Cert.Sage.network (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg7))
              (m ((c.tc : Thread Cert.ReferenceIdeal.nD Cert.ReferenceIdeal.τ).loc Cert.ReferenceIdeal.main_arg8))
              (m ((c.tc : Thread Cert.ReferenceIdeal.nD Cert.ReferenceIdeal.τ).loc Cert.ReferenceIdeal.main_arg9))
              (m ((c.tc : Thread Cert.ReferenceIdeal.nD Cert.ReferenceIdeal.τ).loc Cert.ReferenceIdeal.main_arg10))
              (m ((c.tc : Thread Cert.ReferenceIdeal.nD Cert.ReferenceIdeal.τ).loc Cert.ReferenceIdeal.main_arg11))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11) :=
  Cert.ReferenceIdeal.Value.run (F := Ideal) m ρ

/-- From memories that agree on the twelve inputs, under the precondition, both programs end with the network of the
    kernel's launched arrays in their result arrays. -/
theorem algebraic : Cert.algebraic_KernelIdeal_ReferenceIdeal := by
  intro m ρ m' ρ' hpre hagree
  refine ⟨fun c => Cert.Sage.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · -- the kernel: the run with its result named, and the result array read back
    exact (θ_run Cert.KernelIdeal.defs _ _).mono
      (fun _ h c => ⟨(h c).1.trans (Cert.KernelIdeal.Hand.kernel_value m ρ hpre c), (h c).2⟩)
      (Cert.KernelIdeal.GenRun.run_named (F := Ideal) m ρ)
  · -- the reference: its run, at arrays that agree with the kernel's
    refine (θ_run Cert.ReferenceIdeal.defs _ _).mono (fun _ h c => ⟨(h c).1.trans ?_, (h c).2⟩) (ref_run m' ρ')
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
